-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x32 : Shape := ⟨2, ![500000, 32]⟩
abbrev S500000 : Shape := ⟨1, ![500000]⟩
abbrev S500000x16 : Shape := ⟨2, ![500000, 16]⟩
abbrev S64x128 : Shape := ⟨2, ![64, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S500000x32 : S_.BroadcastsInDim S500000x32 (![] : Fin 0 → Fin S500000x32.rank)
  reducesTo_S500000x32_S_d0_1 : S500000x32.ReducesTo [0, 1] S_
  h_S_ : 0 < S_.numel
  bcast_S_S500000x16 : S_.BroadcastsInDim S500000x16 (![] : Fin 0 → Fin S500000x16.rank)
  reducesTo_S500000x16_S_d0_1 : S500000x16.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S64x1 .f32) (main_arg10 : FVec F S1 .f32) (main_v33 : IVec S_ 1) : IVec S_ 1 :=
  let main_v34 : FVec F S64x1 .f32 := Host.absf main_arg9
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S128 .f32) (main_arg7 : FVec F S128x64 .f32) (main_arg8 : FVec F S64 .f32) (main_arg9 : FVec F S64x1 .f32) (main_arg10 : FVec F S1 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S500000x32 .f32) (main_arg1 : IVec S500000 32) (main_arg2 : IVec S500000 32) (main_arg3 : FVec F S500000x16 .f32) (main_arg4 : FVec F S500000x16 .f32) (main_arg5 : FVec F S64x128 .f32) (main_arg6 : FVec F S128 .f32) (main_arg7 : FVec F S128x64 .f32) (main_arg8 : FVec F S64 .f32) (main_arg9 : FVec F S64x1 .f32) (main_arg10 : FVec F S1 .f32) : IVec S_ 1 :=
  let main_v0 : FVec F S500000x32 .f32 := Host.absf main_arg0
  let main_cst : FVec F S_ .f32 := constant S_ .f32 0x7F800000#32
  let main_v1 : FVec F S500000x32 .f32 := broadcastInDim S500000x32 ![] bcast_S_S500000x32 main_cst
  let main_v2 : IVec S500000x32 1 := cmpf .olt main_v0 main_v1
  let main_c : IVec S_ 1 := constantI S_ 1 1#1
  let main_v3 : IVec S_ 1 := (fun x v => Host.reduce IntOp.andi x v reducesTo_S500000x32_S_d0_1 h_S_) main_v2 main_c
  let main_v4 : FVec F S500000x16 .f32 := Host.absf main_arg3
  let main_cst_0 : FVec F S_ .f32 := constant S_ .f32 0x7F800000#32
  let main_v5 : FVec F S500000x16 .f32 := broadcastInDim S500000x16 ![] bcast_S_S500000x16 main_cst_0
  let main_v6 : IVec S500000x16 1 := cmpf .olt main_v4 main_v5
  let main_c_1 : IVec S_ 1 := constantI S_ 1 1#1
  let main_v7 : IVec S_ 1 := (fun x v => Host.reduce IntOp.andi x v reducesTo_S500000x16_S_d0_1 h_S_) main_v6 main_c_1
  let main_v8 : IVec S_ 1 := andi main_v3 main_v7
  let main_v9 : FVec F S500000x16 .f32 := Host.absf main_arg4
  let main_cst_2 : FVec F S_ .f32 := constant S_ .f32 0x7F800000#32
  let main_v10 : FVec F S500000x16 .f32 := broadcastInDim S500000x16 ![] bcast_S_S500000x16 main_cst_2
  let main_v11 : IVec S500000x16 1 := cmpf .olt main_v9 main_v10
  let main_c_3 : IVec S_ 1 := constantI S_ 1 1#1
  let main_v12 : IVec S_ 1 := (fun x v => Host.reduce IntOp.andi x v reducesTo_S500000x16_S_d0_1 h_S_) main_v11 main_c_3
  let main_v13 : IVec S_ 1 := andi main_v8 main_v12
  let main_v14 : FVec F S64x128 .f32 := Host.absf main_arg5
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg6 main_arg7 main_arg8 main_arg9 main_arg10 main_v13 main_v16
-- ==== Kernel.lean ====
abbrev S500000x32 : Shape := ⟨2, ![500000, 32]⟩
abbrev S500000 : Shape := ⟨1, ![500000]⟩
abbrev S500000x16 : Shape := ⟨2, ![500000, 16]⟩
abbrev S64x128 : Shape := ⟨2, ![64, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩
abbrev S50000x16 : Shape := ⟨2, ![50000, 16]⟩
abbrev S500000x1 : Shape := ⟨2, ![500000, 1]⟩
abbrev S50000 : Shape := ⟨1, ![50000]⟩
abbrev S50000x1 : Shape := ⟨2, ![50000, 1]⟩
abbrev S10000x16 : Shape := ⟨2, ![10000, 16]⟩
abbrev S10000 : Shape := ⟨1, ![10000]⟩
abbrev S10000x1 : Shape := ⟨2, ![10000, 1]⟩
abbrev S10000x32 : Shape := ⟨2, ![10000, 32]⟩
abbrev S10000x64 : Shape := ⟨2, ![10000, 64]⟩
abbrev S10000x128 : Shape := ⟨2, ![10000, 128]⟩
abbrev S1x128 : Shape := ⟨2, ![1, 128]⟩
abbrev S1x64 : Shape := ⟨2, ![1, 64]⟩
abbrev S1x1 : Shape := ⟨2, ![1, 1]⟩

abbrev nBuf : Space → Nat
  | .hbm => 86
  | .vmem => 14
  | .smem => 0
  | _ => 0

abbrev bufTy : (tb : Table) → Fin (tcTables nBuf tb) → BufTy
  | .hbm, ⟨0, _⟩ => ⟨S500000x32, .f32⟩
  | .hbm, ⟨1, _⟩ => ⟨S500000, .i32⟩
  | .hbm, ⟨2, _⟩ => ⟨S500000, .i32⟩
  | .hbm, ⟨3, _⟩ => ⟨S500000x16, .f32⟩
  | .hbm, ⟨4, _⟩ => ⟨S500000x16, .f32⟩
  | .hbm, ⟨5, _⟩ => ⟨S64x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64x1, .f32⟩
  | .hbm, ⟨10, _⟩ => ⟨S1, .f32⟩
  | .hbm, ⟨11, _⟩ => ⟨S_, .f32⟩
  | .hbm, ⟨12, _⟩ => ⟨S50000x16, .f32⟩
  | .hbm, ⟨13, _⟩ => ⟨S500000x1, .i32⟩
  | .hbm, ⟨14, _⟩ => ⟨S50000x16, .f32⟩
  | .hbm, ⟨15, _⟩ => ⟨S_, .f32⟩
  | .hbm, ⟨16, _⟩ => ⟨S500000, .f32⟩
  | .hbm, ⟨17, _⟩ => ⟨S_, .f32⟩
  | .hbm, ⟨18, _⟩ => ⟨S50000, .f32⟩
  | .hbm, ⟨19, _⟩ => ⟨S500000x1, .i32⟩
  | .hbm, ⟨20, _⟩ => ⟨S50000, .f32⟩
  | .hbm, ⟨21, _⟩ => ⟨S50000x1, .f32⟩
  | .hbm, ⟨22, _⟩ => ⟨S_, .f32⟩
  | .hbm, ⟨23, _⟩ => ⟨S50000x1, .f32⟩
  | .hbm, ⟨24, _⟩ => ⟨S50000x1, .i1⟩
  | .hbm, ⟨25, _⟩ => ⟨S_, .f32⟩
  | .hbm, ⟨26, _⟩ => ⟨S50000x1, .f32⟩
  | .hbm, ⟨27, _⟩ => ⟨S50000x1, .i1⟩
  | .hbm, ⟨28, _⟩ => ⟨S_, .f32⟩
  | .hbm, ⟨29, _⟩ => ⟨S_, .f32⟩
  | .hbm, ⟨30, _⟩ => ⟨S50000x1, .f32⟩
  | .hbm, ⟨31, _⟩ => ⟨S50000x1, .f32⟩
  | .hbm, ⟨32, _⟩ => ⟨S50000x16, .f32⟩
  | .hbm, ⟨33, _⟩ => ⟨S50000x16, .f32⟩
  | .hbm, ⟨34, _⟩ => ⟨S_, .f32⟩
  | .hbm, ⟨35, _⟩ => ⟨S_, .f32⟩
  | .hbm, ⟨36, _⟩ => ⟨S50000x16, .i1⟩
  | .hbm, ⟨37, _⟩ => ⟨S50000x16, .f32⟩
  | .hbm, ⟨38, _⟩ => ⟨S50000x16, .f32⟩
  | .hbm, ⟨39, _⟩ => ⟨S_, .i32⟩
  | .hbm, ⟨40, _⟩ => ⟨S500000, .i32⟩
  | .hbm, ⟨41, _⟩ => ⟨S500000, .i1⟩
  | .hbm, ⟨42, _⟩ => ⟨S_, .i32⟩
  | .hbm, ⟨43, _⟩ => ⟨S500000, .i32⟩
  | .hbm, ⟨44, _⟩ => ⟨S500000, .i32⟩
  | .hbm, ⟨45, _⟩ => ⟨S500000, .i32⟩
  | .hbm, ⟨46, _⟩ => ⟨S500000x1, .i32⟩
  | .hbm, ⟨47, _⟩ => ⟨S500000x16, .f32⟩
  | .hbm, ⟨48, _⟩ => ⟨S_, .f32⟩
  | .hbm, ⟨49, _⟩ => ⟨S10000x16, .f32⟩
  | .hbm, ⟨50, _⟩ => ⟨S500000x1, .i32⟩
  | .hbm, ⟨51, _⟩ => ⟨S10000x16, .f32⟩
  | .hbm, ⟨52, _⟩ => ⟨S_, .f32⟩
  | .hbm, ⟨53, _⟩ => ⟨S500000, .f32⟩
  | .hbm, ⟨54, _⟩ => ⟨S_, .f32⟩
  | .hbm, ⟨55, _⟩ => ⟨S10000, .f32⟩
  | .hbm, ⟨56, _⟩ => ⟨S500000x1, .i32⟩
  | .hbm, ⟨57, _⟩ => ⟨S10000, .f32⟩
  | .hbm, ⟨58, _⟩ => ⟨S10000x1, .f32⟩
  | .hbm, ⟨59, _⟩ => ⟨S_, .f32⟩
  | .hbm, ⟨60, _⟩ => ⟨S10000x1, .f32⟩
  | .hbm, ⟨61, _⟩ => ⟨S10000x1, .i1⟩
  | .hbm, ⟨62, _⟩ => ⟨S_, .f32⟩
  | .hbm, ⟨63, _⟩ => ⟨S10000x1, .f32⟩
  | .hbm, ⟨64, _⟩ => ⟨S10000x1, .i1⟩
  | .hbm, ⟨65, _⟩ => ⟨S_, .f32⟩
  | .hbm, ⟨66, _⟩ => ⟨S_, .f32⟩
  | .hbm, ⟨67, _⟩ => ⟨S10000x1, .f32⟩
  | .hbm, ⟨68, _⟩ => ⟨S10000x1, .f32⟩
  | .hbm, ⟨69, _⟩ => ⟨S10000x16, .f32⟩
  | .hbm, ⟨70, _⟩ => ⟨S10000x16, .f32⟩
  | .hbm, ⟨71, _⟩ => ⟨S_, .f32⟩
  | .hbm, ⟨72, _⟩ => ⟨S_, .f32⟩
  | .hbm, ⟨73, _⟩ => ⟨S10000x16, .i1⟩
  | .hbm, ⟨74, _⟩ => ⟨S10000x16, .f32⟩
  | .hbm, ⟨75, _⟩ => ⟨S10000x16, .f32⟩
  | .hbm, ⟨76, _⟩ => ⟨S_, .i32⟩
  | .hbm, ⟨77, _⟩ => ⟨S500000, .i32⟩
  | .hbm, ⟨78, _⟩ => ⟨S500000, .i1⟩
  | .hbm, ⟨79, _⟩ => ⟨S_, .i32⟩
  | .hbm, ⟨80, _⟩ => ⟨S500000, .i32⟩
  | .hbm, ⟨81, _⟩ => ⟨S500000, .i32⟩
  | .hbm, ⟨82, _⟩ => ⟨S500000, .i32⟩
  | .hbm, ⟨83, _⟩ => ⟨S500000x1, .i32⟩
  | .hbm, ⟨84, _⟩ => ⟨S500000x16, .f32⟩
  | .hbm, ⟨85, _⟩ => ⟨S500000x1, .f32⟩
  | .local _ .vmem, ⟨0, _⟩ => ⟨S10000x32, .f32⟩
  | .local _ .vmem, ⟨1, _⟩ => ⟨S10000x32, .f32⟩
  | .local _ .vmem, ⟨2, _⟩ => ⟨S10000x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S64x128, .f32⟩
  | .local _ .vmem, ⟨7, _⟩ => ⟨S128, .f32⟩
  | .local _ .vmem, ⟨8, _⟩ => ⟨S128x64, .f32⟩
  | .local _ .vmem, ⟨9, _⟩ => ⟨S64, .f32⟩
  | .local _ .vmem, ⟨10, _⟩ => ⟨S64x1, .f32⟩
  | .local _ .vmem, ⟨11, _⟩ => ⟨S1, .f32⟩
  | .local _ .vmem, ⟨12, _⟩ => ⟨S10000x1, .f32⟩
  | .local _ .vmem, ⟨13, _⟩ => ⟨S10000x1, .f32⟩
  | _, _ => ⟨S500000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_2 : Ref sig .tc := ⟨.hbm, 22, rfl⟩
abbrev main_v8 : Ref sig .tc := ⟨.hbm, 23, rfl⟩
abbrev main_v9 : Ref sig .tc := ⟨.hbm, 24, rfl⟩
abbrev main_cst_3 : Ref sig .tc := ⟨.hbm, 25, rfl⟩
abbrev main_v10 : Ref sig .tc := ⟨.hbm, 26, rfl⟩
abbrev main_v11 : Ref sig .tc := ⟨.hbm, 27, rfl⟩
abbrev main_cst_4 : Ref sig .tc := ⟨.hbm, 28, rfl⟩
abbrev main_call0_v0 : Ref sig .tc := ⟨.hbm, 29, rfl⟩
abbrev main_call0_v1 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_5 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v15 : Ref sig .tc := ⟨.hbm, 38, rfl⟩
abbrev main_c : Ref sig .tc := ⟨.hbm, 39, rfl⟩
abbrev main_v16 : Ref sig .tc := ⟨.hbm, 40, rfl⟩
abbrev main_v17 : Ref sig .tc := ⟨.hbm, 41, rfl⟩
abbrev main_c_6 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_7 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_8 : Ref sig .tc := ⟨.hbm, 52, rfl⟩
abbrev main_v26 : Ref sig .tc := ⟨.hbm, 53, rfl⟩
abbrev main_cst_9 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_10 : Ref sig .tc := ⟨.hbm, 59, rfl⟩
abbrev main_v31 : Ref sig .tc := ⟨.hbm, 60, rfl⟩
abbrev main_v32 : Ref sig .tc := ⟨.hbm, 61, rfl⟩
abbrev main_cst_11 : Ref sig .tc := ⟨.hbm, 62, rfl⟩
abbrev main_v33 : Ref sig .tc := ⟨.hbm, 63, rfl⟩
abbrev main_v34 : Ref sig .tc := ⟨.hbm, 64, rfl⟩
abbrev main_cst_12 : Ref sig .tc := ⟨.hbm, 65, rfl⟩
abbrev main_call2_v0 : Ref sig .tc := ⟨.hbm, 66, rfl⟩
abbrev main_call2_v1 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_cst_13 : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_v38 : Ref sig .tc := ⟨.hbm, 75, rfl⟩
abbrev main_c_14 : Ref sig .tc := ⟨.hbm, 76, rfl⟩
abbrev main_v39 : Ref sig .tc := ⟨.hbm, 77, rfl⟩
abbrev main_v40 : Ref sig .tc := ⟨.hbm, 78, rfl⟩
abbrev main_c_15 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S10000x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S50000x16 : S_.BroadcastsInDim S50000x16 (![] : Fin 0 → Fin S50000x16.rank)
  bcast_S500000_S500000x1_0 : S500000.BroadcastsInDim S500000x1 (![0] : Fin 1 → Fin S500000x1.rank)
  bcast_S_S500000 : S_.BroadcastsInDim S500000 (![] : Fin 0 → Fin S500000.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x16_0_1 : S50000x1.BroadcastsInDim S50000x16 (![0, 1] : Fin 2 → Fin S50000x16.rank)
  bcast_S_S10000x16 : S_.BroadcastsInDim S10000x16 (![] : Fin 0 → Fin S10000x16.rank)
  bcast_S_S10000 : S_.BroadcastsInDim S10000 (![] : Fin 0 → Fin S10000.rank)
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x16_0_1 : S10000x1.BroadcastsInDim S10000x16 (![0, 1] : Fin 2 → Fin S10000x16.rank)
  inb_S10000x32_S10000x32_0_0 : ∀ a, (![0, 0] : Fin 2 → Nat) a + S10000x32.size a ≤ S10000x32.size a
  h_S10000x32 : 0 < S10000x32.numel
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  concatenates_S10000x32_S10000x16_S10000x16_S10000x64_d1 : Shape.Concatenates [S10000x32, S10000x16, S10000x16] S10000x64 1
  inb_S64x128_S64x128_0_0 : ∀ a, (![0, 0] : Fin 2 → Nat) a + S64x128.size a ≤ S64x128.size a
  h_S64x128 : 0 < S64x128.numel
  bitsLt_bf16_f32 : FTy.bits .bf16 < FTy.bits .f32
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  scatter_S50000x16_S500000x1_S500000x16_1_0_0_1_wf : ScatterDims.WF S50000x16 S500000x1 S500000x16 [1] [0] [0] 1
  scatter_S50000_S500000x1_S500000_n_0_0_1_wf : ScatterDims.WF S50000 S500000x1 S500000 [] [0] [0] 1
  gather_S50000x16_S500000x1_S500000x16_1_0_n_n_0_1_116_wf : GatherDims.WF S50000x16 S500000x1 S500000x16 [1] [0] [] [0] [] 1 ![1, 16]
  scatter_S10000x16_S500000x1_S500000x16_1_0_0_1_wf : ScatterDims.WF S10000x16 S500000x1 S500000x16 [1] [0] [0] 1
  scatter_S10000_S500000x1_S500000_n_0_0_1_wf : ScatterDims.WF S10000 S500000x1 S500000 [] [0] [0] 1
  gather_S10000x16_S500000x1_S500000x16_1_0_n_n_0_1_116_wf : GatherDims.WF S10000x16 S500000x1 S500000x16 [1] [0] [] [0] [] 1 ![1, 16]
  dot_S10000x64_S64x128_S10000x128_1_0_0_1_n_n_wf : DotDims.WF S10000x64 S64x128 S10000x128 [1] [0] [0] [1] [] []
  dot_S10000x128_S128x64_S10000x64_1_0_0_1_n_n_wf : DotDims.WF S10000x128 S128x64 S10000x64 [1] [0] [0] [1] [] []
  dot_S10000x64_S64x1_S10000x1_1_0_0_1_n_n_wf : DotDims.WF S10000x64 S64x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S500000x32.size a
  hwx0_0 : ∀ i : grid0.Coords, EltTy.bits .f32 = 32 ∨ (Rect.block (s := S500000x32) S10000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x16.size a ≤ S500000x16.size a
  hwx0_1 : ∀ i : grid0.Coords, EltTy.bits .f32 = 32 ∨ (Rect.block (s := S500000x16) S10000x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S500000x16.size a
  hwx0_2 : ∀ i : grid0.Coords, EltTy.bits .f32 = 32 ∨ (Rect.block (s := S500000x16) S10000x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x1.size a ≤ S64x1.size a
  hwx0_7 : ∀ i : grid0.Coords, EltTy.bits .f32 = 32 ∨ (Rect.block (s := S64x1) S64x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1.size a ≤ S1.size a
  hwx0_8 : ∀ i : grid0.Coords, EltTy.bits .f32 = 32 ∨ (Rect.block (s := S1) S1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S10000x1.size a ≤ S500000x1.size a
  hwx0_9 : ∀ i : grid0.Coords, EltTy.bits .f32 = 32 ∨ (Rect.block (s := S500000x1) S10000x1.size (cc0_transform_9 i) (hinb0_9 i)).WholeWords (EltTy.packing .f32)

variable [Facts₀]

def scatter_S50000x16_S500000x1_S500000x16_1_0_0_1 : ScatterDims S50000x16 S500000x1 S500000x16 where
  updateWindowDims := [1]
  insertedWindowDims := [0]
  scatterDimsToOperandDims := [0]
  indexVectorDim := 1
  wf := scatter_S50000x16_S500000x1_S500000x16_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000x16_S500000x1_S500000x16_1_0_n_n_0_1_116 : GatherDims S50000x16 S500000x1 S500000x16 where
  offsetDims := [1]
  collapsedSliceDims := [0]
  operandBatchingDims := []
  startIndicesBatchingDims := []
  startIndexMap := [0]
  indexVectorDim := 1
  sliceSizes := ![1, 16]
  wf := gather_S50000x16_S500000x1_S500000x16_1_0_n_n_0_1_116_wf
def scatter_S10000x16_S500000x1_S500000x16_1_0_0_1 : ScatterDims S10000x16 S500000x1 S500000x16 where
  updateWindowDims := [1]
  insertedWindowDims := [0]
  scatterDimsToOperandDims := [0]
  indexVectorDim := 1
  wf := scatter_S10000x16_S500000x1_S500000x16_1_0_0_1_wf
def scatter_S10000_S500000x1_S500000_n_0_0_1 : ScatterDims S10000 S500000x1 S500000 where
  updateWindowDims := []
  insertedWindowDims := [0]
  scatterDimsToOperandDims := [0]
  indexVectorDim := 1
  wf := scatter_S10000_S500000x1_S500000_n_0_0_1_wf
def gather_S10000x16_S500000x1_S500000x16_1_0_n_n_0_1_116 : GatherDims S10000x16 S500000x1 S500000x16 where
  offsetDims := [1]
  collapsedSliceDims := [0]
  operandBatchingDims := []
  startIndicesBatchingDims := []
  startIndexMap := [0]
  indexVectorDim := 1
  sliceSizes := ![1, 16]
  wf := gather_S10000x16_S500000x1_S500000x16_1_0_n_n_0_1_116_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

abbrev win0_0 : Pipeline.Window sig grid0 :=
  Pipeline.Window.ofSpec (Memref.whole main_arg0) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S10000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v45) S10000x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S64x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v46) S10000x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S500000x32 : Shape := ⟨2, ![500000, 32]⟩
abbrev S500000 : Shape := ⟨1, ![500000]⟩
abbrev S500000x16 : Shape := ⟨2, ![500000, 16]⟩
abbrev S64x128 : Shape := ⟨2, ![64, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩
abbrev S50000x16 : Shape := ⟨2, ![50000, 16]⟩
abbrev S500000x1 : Shape := ⟨2, ![500000, 1]⟩
abbrev S50000 : Shape := ⟨1, ![50000]⟩
abbrev S50000x1 : Shape := ⟨2, ![50000, 1]⟩
abbrev S10000x16 : Shape := ⟨2, ![10000, 16]⟩
abbrev S10000 : Shape := ⟨1, ![10000]⟩
abbrev S10000x1 : Shape := ⟨2, ![10000, 1]⟩
abbrev S500000x64 : Shape := ⟨2, ![500000, 64]⟩
abbrev S500000x128 : Shape := ⟨2, ![500000, 128]⟩
abbrev S1x128 : Shape := ⟨2, ![1, 128]⟩
abbrev S1x64 : Shape := ⟨2, ![1, 64]⟩
abbrev S1x1 : Shape := ⟨2, ![1, 1]⟩

abbrev nBuf : Space → Nat
  | .hbm => 104
  | .vmem => 0
  | .smem => 0
  | _ => 0

abbrev bufTy : (tb : Table) → Fin (tcTables nBuf tb) → BufTy
  | .hbm, ⟨0, _⟩ => ⟨S500000x32, .f32⟩
  | .hbm, ⟨1, _⟩ => ⟨S500000, .i32⟩
  | .hbm, ⟨2, _⟩ => ⟨S500000, .i32⟩
  | .hbm, ⟨3, _⟩ => ⟨S500000x16, .f32⟩
  | .hbm, ⟨4, _⟩ => ⟨S500000x16, .f32⟩
  | .hbm, ⟨5, _⟩ => ⟨S64x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64x1, .f32⟩
  | .hbm, ⟨10, _⟩ => ⟨S1, .f32⟩
  | .hbm, ⟨11, _⟩ => ⟨S_, .f32⟩
  | .hbm, ⟨12, _⟩ => ⟨S50000x16, .f32⟩
  | .hbm, ⟨13, _⟩ => ⟨S500000x1, .i32⟩
  | .hbm, ⟨14, _⟩ => ⟨S50000x16, .f32⟩
  | .hbm, ⟨15, _⟩ => ⟨S_, .f32⟩
  | .hbm, ⟨16, _⟩ => ⟨S500000, .f32⟩
  | .hbm, ⟨17, _⟩ => ⟨S_, .f32⟩
  | .hbm, ⟨18, _⟩ => ⟨S50000, .f32⟩
  | .hbm, ⟨19, _⟩ => ⟨S500000x1, .i32⟩
  | .hbm, ⟨20, _⟩ => ⟨S50000, .f32⟩
  | .hbm, ⟨21, _⟩ => ⟨S50000x1, .f32⟩
  | .hbm, ⟨22, _⟩ => ⟨S_, .f32⟩
  | .hbm, ⟨23, _⟩ => ⟨S50000x1, .f32⟩
  | .hbm, ⟨24, _⟩ => ⟨S50000x1, .i1⟩
  | .hbm, ⟨25, _⟩ => ⟨S_, .f32⟩
  | .hbm, ⟨26, _⟩ => ⟨S50000x1, .f32⟩
  | .hbm, ⟨27, _⟩ => ⟨S50000x1, .i1⟩
  | .hbm, ⟨28, _⟩ => ⟨S_, .f32⟩
  | .hbm, ⟨29, _⟩ => ⟨S_, .f32⟩
  | .hbm, ⟨30, _⟩ => ⟨S50000x1, .f32⟩
  | .hbm, ⟨31, _⟩ => ⟨S50000x1, .f32⟩
  | .hbm, ⟨32, _⟩ => ⟨S50000x16, .f32⟩
  | .hbm, ⟨33, _⟩ => ⟨S50000x16, .f32⟩
  | .hbm, ⟨34, _⟩ => ⟨S_, .f32⟩
  | .hbm, ⟨35, _⟩ => ⟨S_, .f32⟩
  | .hbm, ⟨36, _⟩ => ⟨S50000x16, .i1⟩
  | .hbm, ⟨37, _⟩ => ⟨S50000x16, .f32⟩
  | .hbm, ⟨38, _⟩ => ⟨S50000x16, .f32⟩
  | .hbm, ⟨39, _⟩ => ⟨S_, .i32⟩
  | .hbm, ⟨40, _⟩ => ⟨S500000, .i32⟩
  | .hbm, ⟨41, _⟩ => ⟨S500000, .i1⟩
  | .hbm, ⟨42, _⟩ => ⟨S_, .i32⟩
  | .hbm, ⟨43, _⟩ => ⟨S500000, .i32⟩
  | .hbm, ⟨44, _⟩ => ⟨S500000, .i32⟩
  | .hbm, ⟨45, _⟩ => ⟨S500000, .i32⟩
  | .hbm, ⟨46, _⟩ => ⟨S500000x1, .i32⟩
  | .hbm, ⟨47, _⟩ => ⟨S500000x16, .f32⟩
  | .hbm, ⟨48, _⟩ => ⟨S_, .f32⟩
  | .hbm, ⟨49, _⟩ => ⟨S10000x16, .f32⟩
  | .hbm, ⟨50, _⟩ => ⟨S500000x1, .i32⟩
  | .hbm, ⟨51, _⟩ => ⟨S10000x16, .f32⟩
  | .hbm, ⟨52, _⟩ => ⟨S_, .f32⟩
  | .hbm, ⟨53, _⟩ => ⟨S500000, .f32⟩
  | .hbm, ⟨54, _⟩ => ⟨S_, .f32⟩
  | .hbm, ⟨55, _⟩ => ⟨S10000, .f32⟩
  | .hbm, ⟨56, _⟩ => ⟨S500000x1, .i32⟩
  | .hbm, ⟨57, _⟩ => ⟨S10000, .f32⟩
  | .hbm, ⟨58, _⟩ => ⟨S10000x1, .f32⟩
  | .hbm, ⟨59, _⟩ => ⟨S_, .f32⟩
  | .hbm, ⟨60, _⟩ => ⟨S10000x1, .f32⟩
  | .hbm, ⟨61, _⟩ => ⟨S10000x1, .i1⟩
  | .hbm, ⟨62, _⟩ => ⟨S_, .f32⟩
  | .hbm, ⟨63, _⟩ => ⟨S10000x1, .f32⟩
  | .hbm, ⟨64, _⟩ => ⟨S10000x1, .i1⟩
  | .hbm, ⟨65, _⟩ => ⟨S_, .f32⟩
  | .hbm, ⟨66, _⟩ => ⟨S_, .f32⟩
  | .hbm, ⟨67, _⟩ => ⟨S10000x1, .f32⟩
  | .hbm, ⟨68, _⟩ => ⟨S10000x1, .f32⟩
  | .hbm, ⟨69, _⟩ => ⟨S10000x16, .f32⟩
  | .hbm, ⟨70, _⟩ => ⟨S10000x16, .f32⟩
  | .hbm, ⟨71, _⟩ => ⟨S_, .f32⟩
  | .hbm, ⟨72, _⟩ => ⟨S_, .f32⟩
  | .hbm, ⟨73, _⟩ => ⟨S10000x16, .i1⟩
  | .hbm, ⟨74, _⟩ => ⟨S10000x16, .f32⟩
  | .hbm, ⟨75, _⟩ => ⟨S10000x16, .f32⟩
  | .hbm, ⟨76, _⟩ => ⟨S_, .i32⟩
  | .hbm, ⟨77, _⟩ => ⟨S500000, .i32⟩
  | .hbm, ⟨78, _⟩ => ⟨S500000, .i1⟩
  | .hbm, ⟨79, _⟩ => ⟨S_, .i32⟩
  | .hbm, ⟨80, _⟩ => ⟨S500000, .i32⟩
  | .hbm, ⟨81, _⟩ => ⟨S500000, .i32⟩
  | .hbm, ⟨82, _⟩ => ⟨S500000, .i32⟩
  | .hbm, ⟨83, _⟩ => ⟨S500000x1, .i32⟩
  | .hbm, ⟨84, _⟩ => ⟨S500000x16, .f32⟩
  | .hbm, ⟨85, _⟩ => ⟨S500000x64, .f32⟩
  | .hbm, ⟨86, _⟩ => ⟨S500000x128, .f32⟩
  | .hbm, ⟨87, _⟩ => ⟨S1x128, .f32⟩
  | .hbm, ⟨88, _⟩ => ⟨S500000x128, .f32⟩
  | .hbm, ⟨89, _⟩ => ⟨S500000x128, .f32⟩
  | .hbm, ⟨90, _⟩ => ⟨S_, .f32⟩
  | .hbm, ⟨91, _⟩ => ⟨S500000x128, .f32⟩
  | .hbm, ⟨92, _⟩ => ⟨S500000x128, .f32⟩
  | .hbm, ⟨93, _⟩ => ⟨S500000x64, .f32⟩
  | .hbm, ⟨94, _⟩ => ⟨S1x64, .f32⟩
  | .hbm, ⟨95, _⟩ => ⟨S500000x64, .f32⟩
  | .hbm, ⟨96, _⟩ => ⟨S500000x64, .f32⟩
  | .hbm, ⟨97, _⟩ => ⟨S_, .f32⟩
  | .hbm, ⟨98, _⟩ => ⟨S500000x64, .f32⟩
  | .hbm, ⟨99, _⟩ => ⟨S500000x64, .f32⟩
  | .hbm, ⟨100, _⟩ => ⟨S500000x1, .f32⟩
  | .hbm, ⟨101, _⟩ => ⟨S1x1, .f32⟩
  | .hbm, ⟨102, _⟩ => ⟨S500000x1, .f32⟩
  | .hbm, ⟨103, _⟩ => ⟨S500000x1, .f32⟩
  | _, _ => ⟨S500000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_2 : Ref sig .tc := ⟨.hbm, 22, rfl⟩
abbrev main_v8 : Ref sig .tc := ⟨.hbm, 23, rfl⟩
abbrev main_v9 : Ref sig .tc := ⟨.hbm, 24, rfl⟩
abbrev main_cst_3 : Ref sig .tc := ⟨.hbm, 25, rfl⟩
abbrev main_v10 : Ref sig .tc := ⟨.hbm, 26, rfl⟩
abbrev main_v11 : Ref sig .tc := ⟨.hbm, 27, rfl⟩
abbrev main_cst_4 : Ref sig .tc := ⟨.hbm, 28, rfl⟩
abbrev main_call0_v0 : Ref sig .tc := ⟨.hbm, 29, rfl⟩
abbrev main_call0_v1 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_5 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v15 : Ref sig .tc := ⟨.hbm, 38, rfl⟩
abbrev main_c : Ref sig .tc := ⟨.hbm, 39, rfl⟩
abbrev main_v16 : Ref sig .tc := ⟨.hbm, 40, rfl⟩
abbrev main_v17 : Ref sig .tc := ⟨.hbm, 41, rfl⟩
abbrev main_c_6 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_7 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_8 : Ref sig .tc := ⟨.hbm, 52, rfl⟩
abbrev main_v26 : Ref sig .tc := ⟨.hbm, 53, rfl⟩
abbrev main_cst_9 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_10 : Ref sig .tc := ⟨.hbm, 59, rfl⟩
abbrev main_v31 : Ref sig .tc := ⟨.hbm, 60, rfl⟩
abbrev main_v32 : Ref sig .tc := ⟨.hbm, 61, rfl⟩
abbrev main_cst_11 : Ref sig .tc := ⟨.hbm, 62, rfl⟩
abbrev main_v33 : Ref sig .tc := ⟨.hbm, 63, rfl⟩
abbrev main_v34 : Ref sig .tc := ⟨.hbm, 64, rfl⟩
abbrev main_cst_12 : Ref sig .tc := ⟨.hbm, 65, rfl⟩
abbrev main_call2_v0 : Ref sig .tc := ⟨.hbm, 66, rfl⟩
abbrev main_call2_v1 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_cst_13 : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_v38 : Ref sig .tc := ⟨.hbm, 75, rfl⟩
abbrev main_c_14 : Ref sig .tc := ⟨.hbm, 76, rfl⟩
abbrev main_v39 : Ref sig .tc := ⟨.hbm, 77, rfl⟩
abbrev main_v40 : Ref sig .tc := ⟨.hbm, 78, rfl⟩
abbrev main_c_15 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_call4_cst : Ref sig .tc := ⟨.hbm, 90, rfl⟩
abbrev main_call4_v0 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_call5_cst : Ref sig .tc := ⟨.hbm, 97, rfl⟩
abbrev main_call5_v0 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩

abbrev nD : Nat := 1
abbrev τ : Topo := Topo.v7x

variable {F : FTy → Type} [FloatOps F]

class Facts₀ : Prop where
  bcast_S_S50000x16 : S_.BroadcastsInDim S50000x16 (![] : Fin 0 → Fin S50000x16.rank)
  bcast_S500000_S500000x1_0 : S500000.BroadcastsInDim S500000x1 (![0] : Fin 1 → Fin S500000x1.rank)
  bcast_S_S500000 : S_.BroadcastsInDim S500000 (![] : Fin 0 → Fin S500000.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x16_0_1 : S50000x1.BroadcastsInDim S50000x16 (![0, 1] : Fin 2 → Fin S50000x16.rank)
  bcast_S_S10000x16 : S_.BroadcastsInDim S10000x16 (![] : Fin 0 → Fin S10000x16.rank)
  bcast_S_S10000 : S_.BroadcastsInDim S10000 (![] : Fin 0 → Fin S10000.rank)
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x16_0_1 : S10000x1.BroadcastsInDim S10000x16 (![0, 1] : Fin 2 → Fin S10000x16.rank)
  concatenates_S500000x32_S500000x16_S500000x16_S500000x64_d1 : Shape.Concatenates [S500000x32, S500000x16, S500000x16] S500000x64 1
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S64_S1x64_1 : S64.BroadcastsInDim S1x64 (![1] : Fin 1 → Fin S1x64.rank)
  bcast_S1x64_S500000x64_0_1 : S1x64.BroadcastsInDim S500000x64 (![0, 1] : Fin 2 → Fin S500000x64.rank)
  bcast_S_S500000x64 : S_.BroadcastsInDim S500000x64 (![] : Fin 0 → Fin S500000x64.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  scatter_S50000x16_S500000x1_S500000x16_1_0_0_1_wf : ScatterDims.WF S50000x16 S500000x1 S500000x16 [1] [0] [0] 1
  scatter_S50000_S500000x1_S500000_n_0_0_1_wf : ScatterDims.WF S50000 S500000x1 S500000 [] [0] [0] 1
  gather_S50000x16_S500000x1_S500000x16_1_0_n_n_0_1_116_wf : GatherDims.WF S50000x16 S500000x1 S500000x16 [1] [0] [] [0] [] 1 ![1, 16]
  scatter_S10000x16_S500000x1_S500000x16_1_0_0_1_wf : ScatterDims.WF S10000x16 S500000x1 S500000x16 [1] [0] [0] 1
  scatter_S10000_S500000x1_S500000_n_0_0_1_wf : ScatterDims.WF S10000 S500000x1 S500000 [] [0] [0] 1
  gather_S10000x16_S500000x1_S500000x16_1_0_n_n_0_1_116_wf : GatherDims.WF S10000x16 S500000x1 S500000x16 [1] [0] [] [0] [] 1 ![1, 16]
  dot_S500000x64_S64x128_S500000x128_1_0_0_1_n_n_wf : DotDims.WF S500000x64 S64x128 S500000x128 [1] [0] [0] [1] [] []
  dot_S500000x128_S128x64_S500000x64_1_0_0_1_n_n_wf : DotDims.WF S500000x128 S128x64 S500000x64 [1] [0] [0] [1] [] []
  dot_S500000x64_S64x1_S500000x1_1_0_0_1_n_n_wf : DotDims.WF S500000x64 S64x1 S500000x1 [1] [0] [0] [1] [] []

variable [Facts₀]

def scatter_S50000x16_S500000x1_S500000x16_1_0_0_1 : ScatterDims S50000x16 S500000x1 S500000x16 where
  updateWindowDims := [1]
  insertedWindowDims := [0]
  scatterDimsToOperandDims := [0]
  indexVectorDim := 1
  wf := scatter_S50000x16_S500000x1_S500000x16_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000x16_S500000x1_S500000x16_1_0_n_n_0_1_116 : GatherDims S50000x16 S500000x1 S500000x16 where
  offsetDims := [1]
  collapsedSliceDims := [0]
  operandBatchingDims := []
  startIndicesBatchingDims := []
  startIndexMap := [0]
  indexVectorDim := 1
  sliceSizes := ![1, 16]
  wf := gather_S50000x16_S500000x1_S500000x16_1_0_n_n_0_1_116_wf
def scatter_S10000x16_S500000x1_S500000x16_1_0_0_1 : ScatterDims S10000x16 S500000x1 S500000x16 where
  updateWindowDims := [1]
  insertedWindowDims := [0]
  scatterDimsToOperandDims := [0]
  indexVectorDim := 1
  wf := scatter_S10000x16_S500000x1_S500000x16_1_0_0_1_wf
def scatter_S10000_S500000x1_S500000_n_0_0_1 : ScatterDims S10000 S500000x1 S500000 where
  updateWindowDims := []
  insertedWindowDims := [0]
  scatterDimsToOperandDims := [0]
  indexVectorDim := 1
  wf := scatter_S10000_S500000x1_S500000_n_0_0_1_wf
def gather_S10000x16_S500000x1_S500000x16_1_0_n_n_0_1_116 : GatherDims S10000x16 S500000x1 S500000x16 where
  offsetDims := [1]
  collapsedSliceDims := [0]
  operandBatchingDims := []
  startIndicesBatchingDims := []
  startIndexMap := [0]
  indexVectorDim := 1
  sliceSizes := ![1, 16]
  wf := gather_S10000x16_S500000x1_S500000x16_1_0_n_n_0_1_116_wf
def dot_S500000x64_S64x128_S500000x128_1_0_0_1_n_n : DotDims S500000x64 S64x128 S500000x128 where
  lhsContracting := [1]
  rhsContracting := [0]
  lhsNonContracting := [0]
  rhsNonContracting := [1]
  lhsBatch := []
  rhsBatch := []
  wf := dot_S500000x64_S64x128_S500000x128_1_0_0_1_n_n_wf
def dot_S500000x128_S128x64_S500000x64_1_0_0_1_n_n : DotDims S500000x128 S128x64 S500000x64 where
  lhsContracting := [1]
  rhsContracting := [0]
  lhsNonContracting := [0]
  rhsNonContracting := [1]
  lhsBatch := []
  rhsBatch := []
  wf := dot_S500000x128_S128x64_S500000x64_1_0_0_1_n_n_wf
def dot_S500000x64_S64x1_S500000x1_1_0_0_1_n_n : DotDims S500000x64 S64x1 S500000x1 where
  lhsContracting := [1]
  rhsContracting := [0]
  lhsNonContracting := [0]
  rhsNonContracting := [1]
  lhsBatch := []
  rhsBatch := []
  wf := dot_S500000x64_S64x1_S500000x1_1_0_0_1_n_n_wf

class Facts : Prop extends Facts₀ where

variable [Facts]
-- ==== Proof.RowNet.lean ====
/-
  One row of the network, over the extended reals.

  Both programs send every row of the inputs through the same three affine layers. Row `r` starts as 64 numbers: the
  32 entries of row `r` of `X`, then the 16 entries of row `r` of each of two further arrays `A` and `B` (the two
  group-mean tables looked up at the row's two group labels; this file does not care where they come from).
  With `W₁ : 64 × 128`, `b₁ : 128`, `W₂ : 128 × 64`, `b₂ : 64`, `Wₒ : 64 × 1`, `bₒ : 1`,

      u j = max (∑ a, h a · W₁ a j + b₁ j) 0        (j < 128)
      v k = max (∑ j, u j · W₂ j k + b₂ k) 0        (k < 64)
      y q =      ∑ k, v k · Wₒ k q + bₒ q           (q < 1)

  and the result array holds `y` of row `r` at `(r, q)`. The sums are finite sums in the commutative monoid of extended
  reals, so no order or grouping of the terms is part of the definition, and nothing here needs the entries to be
  finite. The zero of the two maxima is kept as the float word `0x00000000` read at the ideal instance: both programs
  carry that word, and it is never evaluated.

  The row count `n` is a parameter: one block of rows and the whole array are read by the same functions.
-/
import Idealize.ShloMosaic.PureOps.Ideal
import Idealize.ShloMosaic.Lib.ValueIdx
import Idealize.ShloMosaic.Lib.Pipeline.Value

noncomputable section

open scoped BigOperators
open Idealize.ShloMosaic Idealize.ShloMosaic.ValueIdx

namespace Cert.RowNet

/-- The float word zero at the ideal instance: the floor of both rectifiers. -/
abbrev floor0 : EReal := Ideal.ofBits .f32 0x00000000#32

/-- Row `r` of three arrays laid side by side along the columns: columns `0 … 31` are `X`'s, `32 … 47` are `A`'s,
    `48 … 63` are `B`'s. -/
def joined {n : ℕ} (X : (⟨2, ![n, 32]⟩ : Shape).Idx → EReal) (A B : (⟨2, ![n, 16]⟩ : Shape).Idx → EReal)
    (r : Fin n) (a : Fin 64) : EReal :=
  if h : a.val < 32 then X (ix2 r ⟨a.val, h⟩)
  else if h' : a.val < 48 then A (ix2 r ⟨a.val - 32, by omega⟩)
  else B (ix2 r ⟨a.val - 48, by omega⟩)

/-- Two joined rows agree when the three arrays agree along the two rows: which array a column reads, and at which
    of its columns, depends on the column alone. -/
theorem joined_congr {n n' : ℕ} {X : (⟨2, ![n, 32]⟩ : Shape).Idx → EReal} {A B : (⟨2, ![n, 16]⟩ : Shape).Idx → EReal}
    {X' : (⟨2, ![n', 32]⟩ : Shape).Idx → EReal} {A' B' : (⟨2, ![n', 16]⟩ : Shape).Idx → EReal} {r : Fin n} {r' : Fin n'}
    (hX : ∀ a : Fin 32, X (ix2 r a) = X' (ix2 r' a)) (hA : ∀ a : Fin 16, A (ix2 r a) = A' (ix2 r' a))
    (hB : ∀ a : Fin 16, B (ix2 r a) = B' (ix2 r' a)) : joined X A B r = joined X' A' B' r' := by
  funext a
  unfold joined
  split
  · exact hX _
  · split
    · exact hA _
    · exact hB _

/-- **Three arrays joined along the columns, read at `(r, a)`**: the column `a` falls in exactly one of the three
    spans `0 … 31`, `32 … 47`, `48 … 63`, and the entry is that array's, at row `r` and at the column counted from the
    span's start. For any row count. -/
theorem concatenate_apply_joined {n : ℕ} (X : (⟨2, ![n, 32]⟩ : Shape).Idx → EReal) (A B : (⟨2, ![n, 16]⟩ : Shape).Idx → EReal)
    (h : Shape.Concatenates [(⟨2, ![n, 32]⟩ : Shape), ⟨2, ![n, 16]⟩, ⟨2, ![n, 16]⟩] (⟨2, ![n, 64]⟩ : Shape) 1) (r : Fin n) (a : Fin 64) :
    concatenate (⟨2, ![n, 64]⟩ : Shape) 1 [⟨(⟨2, ![n, 32]⟩ : Shape), X⟩, ⟨(⟨2, ![n, 16]⟩ : Shape), A⟩, ⟨(⟨2, ![n, 16]⟩ : Shape), B⟩] h (ix2 r a)
      = joined X A B r a := by
  unfold joined
  split
  · next h0 =>
    exact concatenate_apply_piece (1 : Fin (⟨2, ![n, 64]⟩ : Shape).rank) [⟨(⟨2, ![n, 32]⟩ : Shape), X⟩, ⟨(⟨2, ![n, 16]⟩ : Shape), A⟩, ⟨(⟨2, ![n, 16]⟩ : Shape), B⟩] h (ix2 r a) 0 (by show 0 < 3; omega) (⟨2, ![n, 32]⟩ : Shape) X rfl rfl 0 rfl
      (ix2 r ⟨a.val, h0⟩) (fun b hb => by match b with | ⟨0, _⟩ => rfl | ⟨1, _⟩ => exact absurd rfl hb) (by show 0 + a.val = a.val; omega)
  · split
    · next h0 h1 =>
      exact concatenate_apply_piece (1 : Fin (⟨2, ![n, 64]⟩ : Shape).rank) [⟨(⟨2, ![n, 32]⟩ : Shape), X⟩, ⟨(⟨2, ![n, 16]⟩ : Shape), A⟩, ⟨(⟨2, ![n, 16]⟩ : Shape), B⟩] h (ix2 r a) 1 (by show 1 < 3; omega) (⟨2, ![n, 16]⟩ : Shape) A rfl rfl 32 rfl
        (ix2 r ⟨a.val - 32, by omega⟩) (fun b hb => by match b with | ⟨0, _⟩ => rfl | ⟨1, _⟩ => exact absurd rfl hb) (by show 32 + (a.val - 32) = a.val; omega)
    · next h0 h1 =>
      exact concatenate_apply_piece (1 : Fin (⟨2, ![n, 64]⟩ : Shape).rank) [⟨(⟨2, ![n, 32]⟩ : Shape), X⟩, ⟨(⟨2, ![n, 16]⟩ : Shape), A⟩, ⟨(⟨2, ![n, 16]⟩ : Shape), B⟩] h (ix2 r a) 2 (by show 2 < 3; omega) (⟨2, ![n, 16]⟩ : Shape) B rfl rfl 48 rfl
        (ix2 r ⟨a.val - 48, by have := a.isLt; omega⟩) (fun b hb => by match b with | ⟨0, _⟩ => rfl | ⟨1, _⟩ => exact absurd rfl hb) (by show 48 + (a.val - 48) = a.val; omega)

/-- The first hidden layer of a row `h`: `max (∑ a, h a · W₁ a j + b₁ j) 0`. -/
def hidden1 (W1 : (⟨2, ![64, 128]⟩ : Shape).Idx → EReal) (b1 : (⟨1, ![128]⟩ : Shape).Idx → EReal)
    (h : Fin 64 → EReal) (j : Fin 128) : EReal :=
  max ((∑ a : Fin 64, h a * W1 (ix2 a j)) + b1 (ix1 j)) floor0

/-- The second hidden layer of a first-layer row `u`: `max (∑ j, u j · W₂ j k + b₂ k) 0`. -/
def hidden2 (W2 : (⟨2, ![128, 64]⟩ : Shape).Idx → EReal) (b2 : (⟨1, ![64]⟩ : Shape).Idx → EReal)
    (u : Fin 128 → EReal) (k : Fin 64) : EReal :=
  max ((∑ j : Fin 128, u j * W2 (ix2 j k)) + b2 (ix1 k)) floor0

/-- The read-out of a second-layer row `v`: `∑ k, v k · Wₒ k q + bₒ q`, with no rectifier. -/
def readout (Wo : (⟨2, ![64, 1]⟩ : Shape).Idx → EReal) (bo : (⟨1, ![1]⟩ : Shape).Idx → EReal)
    (v : Fin 64 → EReal) (q : Fin 1) : EReal :=
  (∑ k : Fin 64, v k * Wo (ix2 k q)) + bo (ix1 q)

/-- A row through the three layers. -/
def row (W1 : (⟨2, ![64, 128]⟩ : Shape).Idx → EReal) (b1 : (⟨1, ![128]⟩ : Shape).Idx → EReal)
    (W2 : (⟨2, ![128, 64]⟩ : Shape).Idx → EReal) (b2 : (⟨1, ![64]⟩ : Shape).Idx → EReal)
    (Wo : (⟨2, ![64, 1]⟩ : Shape).Idx → EReal) (bo : (⟨1, ![1]⟩ : Shape).Idx → EReal)
    (h : Fin 64 → EReal) (q : Fin 1) : EReal :=
  readout Wo bo (hidden2 W2 b2 (hidden1 W1 b1 h)) q

/-- The whole result: entry `(r, q)` is row `r` of the joined inputs through the three layers. -/
def net {n : ℕ} (X : (⟨2, ![n, 32]⟩ : Shape).Idx → EReal) (A B : (⟨2, ![n, 16]⟩ : Shape).Idx → EReal)
    (W1 : (⟨2, ![64, 128]⟩ : Shape).Idx → EReal) (b1 : (⟨1, ![128]⟩ : Shape).Idx → EReal)
    (W2 : (⟨2, ![128, 64]⟩ : Shape).Idx → EReal) (b2 : (⟨1, ![64]⟩ : Shape).Idx → EReal)
    (Wo : (⟨2, ![64, 1]⟩ : Shape).Idx → EReal) (bo : (⟨1, ![1]⟩ : Shape).Idx → EReal) :
    (⟨2, ![n, 1]⟩ : Shape).Idx → EReal :=
  fun i => row W1 b1 W2 b2 Wo bo (joined X A B (i 0)) (i 1)

/-- The result at an index given by its two coordinates. -/
theorem net_ix2 {n : ℕ} (X : (⟨2, ![n, 32]⟩ : Shape).Idx → EReal) (A B : (⟨2, ![n, 16]⟩ : Shape).Idx → EReal)
    (W1 : (⟨2, ![64, 128]⟩ : Shape).Idx → EReal) (b1 : (⟨1, ![128]⟩ : Shape).Idx → EReal)
    (W2 : (⟨2, ![128, 64]⟩ : Shape).Idx → EReal) (b2 : (⟨1, ![64]⟩ : Shape).Idx → EReal)
    (Wo : (⟨2, ![64, 1]⟩ : Shape).Idx → EReal) (bo : (⟨1, ![1]⟩ : Shape).Idx → EReal) (r : Fin n) (q : Fin 1) :
    net X A B W1 b1 W2 b2 Wo bo (ix2 r q) = row W1 b1 W2 b2 Wo bo (joined X A B r) q := rfl

end Cert.RowNet

end
-- ==== Proof.RefRow.lean ====
/-
  What the reference computes, one entry at a time.

  The reference's result is the last of a chain of whole-array stages of its arguments: the two group-mean tables
  looked up at the rows' labels (two `500000 × 16` arrays, which this file never opens), joined with `X` along the
  columns; a product with `W₁`, plus `b₁` laid over the rows, floored at zero; the same with `W₂`, `b₂`; the same with
  `Wₒ`, `bₒ` without the floor. At the ideal instance a product of this kind is, entry by entry, the sum over the
  shared coordinate of the operands' products, so each stage at `(r, ·)` reads the stage before it along row `r`
  alone, and is the corresponding stage of `RowNet`. Hence the result at `(r, q)` is row `r` of the joined arrays
  through the three layers (`result_eq`).
-/
import proofs.«152966_j2594160247151_1_alg».proof.Proof.RefRead
import proofs.«152966_j2594160247151_1_alg».proof.Proof.RowNet

noncomputable section

open scoped BigOperators
open Idealize.ShloMosaic Idealize.ShloMosaic.ValueIdx

namespace Cert.ReferenceIdeal.Row

open Cert.ReferenceIdeal Cert.ReferenceIdeal.Gen Cert.ReferenceIdeal.ReadP Cert.RowNet

variable (x0 : (⟨S500000x32, .f32⟩ : BufTy).Contents (Elt Ideal)) (x1 x2 : (⟨S500000, .i32⟩ : BufTy).Contents (Elt Ideal))
  (x3 x4 : (⟨S500000x16, .f32⟩ : BufTy).Contents (Elt Ideal)) (x5 : (⟨S64x128, .f32⟩ : BufTy).Contents (Elt Ideal))
  (x6 : (⟨S128, .f32⟩ : BufTy).Contents (Elt Ideal)) (x7 : (⟨S128x64, .f32⟩ : BufTy).Contents (Elt Ideal))
  (x8 : (⟨S64, .f32⟩ : BufTy).Contents (Elt Ideal)) (x9 : (⟨S64x1, .f32⟩ : BufTy).Contents (Elt Ideal))
  (x10 : (⟨S1, .f32⟩ : BufTy).Contents (Elt Ideal))

/-! ### Where each stage reads its operands: the row and the shared coordinate, or the column -/

theorem left1 (r : Fin 500000) (j : Fin 128) (k : Fin 64) : lidx_main_v47 (ix2 r j) k = ix2 r k :=
  funext fun a => by match a with | ⟨0, _⟩ => rfl | ⟨1, _⟩ => rfl
theorem right1 (r : Fin 500000) (j : Fin 128) (k : Fin 64) : ridx_main_v47 (ix2 r j) k = ix2 k j :=
  funext fun a => by match a with | ⟨0, _⟩ => rfl | ⟨1, _⟩ => rfl
theorem bias1 (r : Fin 500000) (j : Fin 128) : idx_main_v48 (idx_main_v49 (ix2 r j)) = ix1 j :=
  funext fun a => by match a with | ⟨0, _⟩ => rfl
theorem left2 (r : Fin 500000) (k : Fin 64) (j : Fin 128) : lidx_main_v52 (ix2 r k) j = ix2 r j :=
  funext fun a => by match a with | ⟨0, _⟩ => rfl | ⟨1, _⟩ => rfl
theorem right2 (r : Fin 500000) (k : Fin 64) (j : Fin 128) : ridx_main_v52 (ix2 r k) j = ix2 j k :=
  funext fun a => by match a with | ⟨0, _⟩ => rfl | ⟨1, _⟩ => rfl
theorem bias2 (r : Fin 500000) (k : Fin 64) : idx_main_v53 (idx_main_v54 (ix2 r k)) = ix1 k :=
  funext fun a => by match a with | ⟨0, _⟩ => rfl
theorem left3 (r : Fin 500000) (q : Fin 1) (k : Fin 64) : lidx_main_v57 (ix2 r q) k = ix2 r k :=
  funext fun a => by match a with | ⟨0, _⟩ => rfl | ⟨1, _⟩ => rfl
theorem right3 (r : Fin 500000) (q : Fin 1) (k : Fin 64) : ridx_main_v57 (ix2 r q) k = ix2 k q :=
  funext fun a => by match a with | ⟨0, _⟩ => rfl | ⟨1, _⟩ => rfl
theorem bias3 (r : Fin 500000) (q : Fin 1) : idx_main_v58 (idx_main_v59 (ix2 r q)) = ix1 q :=
  funext fun a => by match a with | ⟨0, _⟩ => exact Fin.ext (by have hq := q.isLt; show 0 = q.val; omega)

/-! ### Each stage at an entry -/

/-- Entry `(r, a)` of the joined array. -/
theorem joined_apply (r : Fin 500000) (a : Fin 64) :
    val_main_v46 (F := Ideal) x0 x1 x2 x3 x4 (ix2 r a)
      = joined (n := 500000) x0 (val_main_v22 (F := Ideal) x1 x3) (val_main_v45 (F := Ideal) x2 x4) r a := by
  unfold val_main_v46
  exact concatenate_apply_joined (n := 500000) x0 (val_main_v22 (F := Ideal) x1 x3) (val_main_v45 (F := Ideal) x2 x4)
    concatenates_S500000x32_S500000x16_S500000x16_S500000x64_d1 r a

/-- Entry `(r, j)` of the first layer reads the joined array along row `r`. -/
theorem first_apply (r : Fin 500000) (j : Fin 128) :
    val_main_v51 (F := Ideal) x0 x1 x2 x3 x4 x5 x6 (ix2 r j)
      = hidden1 x5 x6 (fun a => val_main_v46 (F := Ideal) x0 x1 x2 x3 x4 (ix2 r a)) j := by
  rw [val_main_v51_apply, val_main_v50_apply, val_main_v47_apply, val_main_v49_apply, val_main_v48_apply,
    val_main_call4_v0_apply, val_main_call4_cst_apply]
  simp only [left1, right1, bias1]
  rfl

/-- Entry `(r, k)` of the second layer reads the first along row `r`. -/
theorem second_apply (r : Fin 500000) (k : Fin 64) :
    val_main_v56 (F := Ideal) x0 x1 x2 x3 x4 x5 x6 x7 x8 (ix2 r k)
      = hidden2 x7 x8 (fun j => val_main_v51 (F := Ideal) x0 x1 x2 x3 x4 x5 x6 (ix2 r j)) k := by
  rw [val_main_v56_apply, val_main_v55_apply, val_main_v52_apply, val_main_v54_apply, val_main_v53_apply,
    val_main_call5_v0_apply, val_main_call5_cst_apply]
  simp only [left2, right2, bias2]
  rfl

/-- Entry `(r, q)` of the result reads the second layer along row `r`. -/
theorem third_apply (r : Fin 500000) (q : Fin 1) :
    val_main_v60 (F := Ideal) x0 x1 x2 x3 x4 x5 x6 x7 x8 x9 x10 (ix2 r q)
      = readout x9 x10 (fun k => val_main_v56 (F := Ideal) x0 x1 x2 x3 x4 x5 x6 x7 x8 (ix2 r k)) q := by
  rw [val_main_v60_apply, val_main_v57_apply, val_main_v59_apply, val_main_v58_apply]
  simp only [left3, right3, bias3]
  rfl

/-- **The reference's result** is, entry by entry, the joined arrays' row through the three layers. -/
theorem result_eq :
    val_main_v60 (F := Ideal) x0 x1 x2 x3 x4 x5 x6 x7 x8 x9 x10
      = net (n := 500000) x0 (val_main_v22 (F := Ideal) x1 x3) (val_main_v45 (F := Ideal) x2 x4) x5 x6 x7 x8 x9 x10 := by
  funext i
  obtain ⟨r, q, rfl⟩ : ∃ (r : Fin 500000) (q : Fin 1), i = ix2 r q := ⟨i 0, i 1, eq_ix2 i⟩
  rw [net_ix2, third_apply]
  unfold row
  congr 1
  funext k
  rw [second_apply]
  congr 1
  funext j
  rw [first_apply]
  congr 1
  funext a
  exact joined_apply x0 x1 x2 x3 x4 r a

end Cert.ReferenceIdeal.Row

end
-- ==== Proof.KernelLookup.lean ====
/-
  The two looked-up group-mean arrays, as the kernel's region finds them.

  Before its one region the kernel's host part computes, for each of the two label arrays `z` (with `q` groups) and
  its embedding array `e`: the per-group sums of `e`'s rows and the per-group counts (two scatter-adds keyed by `z`), the
  quotient of the sums by the counts where a count is positive and zero elsewhere, and the resulting `q × 16` table
  looked up at every row's label (a gather, a negative label first wrapped by `q`). The reference computes its own two
  arrays by the very same operations in the same order. So, as functions of the arguments `z` and `e`, the arrays the
  region finds are the reference's two stages of that name: nothing about scatter, quotient or gather is used beyond
  their being the same operations on both sides. Stated for any float instance.
-/
import proofs.«152966_j2594160247151_1_alg».proof.Proof.Gen.KernelIdeal.Frame
import proofs.«152966_j2594160247151_1_alg».proof.Proof.RefRead
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Lookup

open Cert.KernelIdeal Cert.KernelIdeal.Gen

variable {F : FTy → Type} [FloatOps F]

set_option maxHeartbeats 4000000 in
/-- The first looked-up array (labels `main_arg1`, embeddings `main_arg3`, 50000 groups) at region entry. -/
theorem first (m : (ℓ : Loc nD τ sig) → Buf (Elt F) ℓ) (c : Dev nD) :
    V m c main_v22
      = Cert.ReferenceIdeal.ReadP.val_main_v22 (F := F) (m ((c : Thread nD τ).loc main_arg1)) (m ((c : Thread nD τ).loc main_arg3)) := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

set_option maxHeartbeats 4000000 in
/-- The second looked-up array (labels `main_arg2`, embeddings `main_arg4`, 10000 groups) at region entry. -/
theorem second (m : (ℓ : Loc nD τ sig) → Buf (Elt F) ℓ) (c : Dev nD) :
    V m c main_v45
      = Cert.ReferenceIdeal.ReadP.val_main_v45 (F := F) (m ((c : Thread nD τ).loc main_arg2)) (m ((c : Thread nD τ).loc main_arg4)) := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

/-- The same, with the array named as window 1's array: the name the frame's block-read terms carry. -/
theorem first_window (m : (ℓ : Loc nD τ sig) → Buf (Elt F) ℓ) (c : Dev nD) :
    V m c (Pipeline.arrRef spec0 1)
      = Cert.ReferenceIdeal.ReadP.val_main_v22 (F := F) (m ((c : Thread nD τ).loc main_arg1)) (m ((c : Thread nD τ).loc main_arg3)) :=
  first m c

/-- The same, with the array named as window 2's array. -/
theorem second_window (m : (ℓ : Loc nD τ sig) → Buf (Elt F) ℓ) (c : Dev nD) :
    V m c (Pipeline.arrRef spec0 2)
      = Cert.ReferenceIdeal.ReadP.val_main_v45 (F := F) (m ((c : Thread nD τ).loc main_arg2)) (m ((c : Thread nD τ).loc main_arg4)) :=
  second m c

end Cert.KernelIdeal.Lookup

end
-- ==== Proof.KernelBlocks.lean ====
/-
  Where the kernel's blocks sit in their arrays.

  The grid has 50 points. At point `t` the three feature windows and the result window hold rows
  `10000 t … 10000 t + 9999` of their arrays (all columns), and the six weight and bias windows hold their whole arrays.
  This file says so for ANY contents of the arrays: reading a feature window's block of an array `A` at `(p, a)` gives
  `A (10000 t + p, a)`, reading a weight window's block gives `A` back, the result window's entry `(p, q)` is the
  array's entry `(10000 t + p, q)`, and every row `r < 500000` of the result array lies in the block of point
  `r / 10000`. No memory and no program value appears here; only the windows' index maps, decided over the 50 points.
-/
import proofs.«152966_j2594160247151_1_alg».proof.Proof.Gen.KernelIdeal.Points
import Idealize.ShloMosaic.Lib.Pipeline.Value
import Idealize.ShloMosaic.Lib.ValueIdx

set_option maxRecDepth 16384

noncomputable section

open Idealize.ShloMosaic Idealize.ShloMosaic.TcCoe Idealize.ShloMosaic.ValueIdx

namespace Cert.KernelIdeal.Blocks

open Cert.KernelIdeal Cert.KernelIdeal.Gen

/-- Where each window's block sits at point `t`, decided over the 50 points: the three feature windows and the result
    window at block row `t`, block column 0; the six weight and bias windows at block 0 throughout. -/
theorem where_blocks : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = t.val ∧ win0_9.index t (1 : Fin 2) = 0 :=
  (by decide +kernel : ∀ t : Fin grid0.N, _)

/-- Row `p` of point `t`'s blocks is row `10000 t + p` of the arrays. -/
abbrev rowOf (t : Fin cfg0.N) (p : Fin 10000) : Fin 500000 :=
  ⟨t.val * 10000 + p.val, by have ht : t.val < 50 := t.isLt; have hp := p.isLt; omega⟩

/-! ### A feature window's block is its array's rows `10000 t …` -/

theorem read0 (A : Vec Ideal S500000x32 .f32) (t : Fin cfg0.N) (p : Fin 10000) (a : Fin 32) :
    ((cfg0.win 0).blk t).view.read (Elt Ideal) A (ix2 p a) = A (ix2 (rowOf t p) a) := by
  obtain ⟨e0, e1, -⟩ := where_blocks t
  show A (((cfg0.win 0).blk t).view.emb (ix2 p a)) = A (ix2 (rowOf t p) a)
  refine congrArg A (funext fun x => Fin.ext ?_)
  match x with
  | ⟨0, _⟩ => show win0_0.index t (0 : Fin 2) * 10000 + 1 * p.val = t.val * 10000 + p.val; omega
  | ⟨1, _⟩ => show win0_0.index t (1 : Fin 2) * 32 + 1 * a.val = a.val; omega

theorem read1 (A : Vec Ideal S500000x16 .f32) (t : Fin cfg0.N) (p : Fin 10000) (a : Fin 16) :
    ((cfg0.win 1).blk t).view.read (Elt Ideal) A (ix2 p a) = A (ix2 (rowOf t p) a) := by
  obtain ⟨-, -, e0, e1, -⟩ := where_blocks t
  show A (((cfg0.win 1).blk t).view.emb (ix2 p a)) = A (ix2 (rowOf t p) a)
  refine congrArg A (funext fun x => Fin.ext ?_)
  match x with
  | ⟨0, _⟩ => show win0_1.index t (0 : Fin 2) * 10000 + 1 * p.val = t.val * 10000 + p.val; omega
  | ⟨1, _⟩ => show win0_1.index t (1 : Fin 2) * 16 + 1 * a.val = a.val; omega

theorem read2 (A : Vec Ideal S500000x16 .f32) (t : Fin cfg0.N) (p : Fin 10000) (a : Fin 16) :
    ((cfg0.win 2).blk t).view.read (Elt Ideal) A (ix2 p a) = A (ix2 (rowOf t p) a) := by
  obtain ⟨-, -, -, -, e0, e1, -⟩ := where_blocks t
  show A (((cfg0.win 2).blk t).view.emb (ix2 p a)) = A (ix2 (rowOf t p) a)
  refine congrArg A (funext fun x => Fin.ext ?_)
  match x with
  | ⟨0, _⟩ => show win0_2.index t (0 : Fin 2) * 10000 + 1 * p.val = t.val * 10000 + p.val; omega
  | ⟨1, _⟩ => show win0_2.index t (1 : Fin 2) * 16 + 1 * a.val = a.val; omega

/-! ### A weight or bias window's block is its whole array -/

theorem read3 (A : Vec Ideal S64x128 .f32) (t : Fin cfg0.N) : ((cfg0.win 3).blk t).view.read (Elt Ideal) A = A := by
  obtain ⟨-, -, -, -, -, -, e0, e1, -⟩ := where_blocks t
  funext y
  show A (((cfg0.win 3).blk t).view.emb y) = A y
  refine congrArg A (funext fun x => Fin.ext ?_)
  match x with
  | ⟨0, _⟩ => show win0_3.index t (0 : Fin 2) * 64 + 1 * (y 0).val = (y 0).val; omega
  | ⟨1, _⟩ => show win0_3.index t (1 : Fin 2) * 128 + 1 * (y 1).val = (y 1).val; omega

theorem read4 (A : Vec Ideal S128 .f32) (t : Fin cfg0.N) : ((cfg0.win 4).blk t).view.read (Elt Ideal) A = A := by
  obtain ⟨-, -, -, -, -, -, -, -, e0, -⟩ := where_blocks t
  funext y
  show A (((cfg0.win 4).blk t).view.emb y) = A y
  refine congrArg A (funext fun x => Fin.ext ?_)
  match x with
  | ⟨0, _⟩ => show win0_4.index t (0 : Fin 1) * 128 + 1 * (y 0).val = (y 0).val; omega

theorem read5 (A : Vec Ideal S128x64 .f32) (t : Fin cfg0.N) : ((cfg0.win 5).blk t).view.read (Elt Ideal) A = A := by
  obtain ⟨-, -, -, -, -, -, -, -, -, e0, e1, -⟩ := where_blocks t
  funext y
  show A (((cfg0.win 5).blk t).view.emb y) = A y
  refine congrArg A (funext fun x => Fin.ext ?_)
  match x with
  | ⟨0, _⟩ => show win0_5.index t (0 : Fin 2) * 128 + 1 * (y 0).val = (y 0).val; omega
  | ⟨1, _⟩ => show win0_5.index t (1 : Fin 2) * 64 + 1 * (y 1).val = (y 1).val; omega

theorem read6 (A : Vec Ideal S64 .f32) (t : Fin cfg0.N) : ((cfg0.win 6).blk t).view.read (Elt Ideal) A = A := by
  obtain ⟨-, -, -, -, -, -, -, -, -, -, -, e0, -⟩ := where_blocks t
  funext y
  show A (((cfg0.win 6).blk t).view.emb y) = A y
  refine congrArg A (funext fun x => Fin.ext ?_)
  match x with
  | ⟨0, _⟩ => show win0_6.index t (0 : Fin 1) * 64 + 1 * (y 0).val = (y 0).val; omega

theorem read7 (A : Vec Ideal S64x1 .f32) (t : Fin cfg0.N) : ((cfg0.win 7).blk t).view.read (Elt Ideal) A = A := by
  obtain ⟨-, -, -, -, -, -, -, -, -, -, -, -, e0, e1, -⟩ := where_blocks t
  funext y
  show A (((cfg0.win 7).blk t).view.emb y) = A y
  refine congrArg A (funext fun x => Fin.ext ?_)
  match x with
  | ⟨0, _⟩ => show win0_7.index t (0 : Fin 2) * 64 + 1 * (y 0).val = (y 0).val; omega
  | ⟨1, _⟩ => show win0_7.index t (1 : Fin 2) * 1 + 1 * (y 1).val = (y 1).val; omega

theorem read8 (A : Vec Ideal S1 .f32) (t : Fin cfg0.N) : ((cfg0.win 8).blk t).view.read (Elt Ideal) A = A := by
  obtain ⟨-, -, -, -, -, -, -, -, -, -, -, -, -, -, e0, -⟩ := where_blocks t
  funext y
  show A (((cfg0.win 8).blk t).view.emb y) = A y
  refine congrArg A (funext fun x => Fin.ext ?_)
  match x with
  | ⟨0, _⟩ => show win0_8.index t (0 : Fin 1) * 1 + 1 * (y 0).val = (y 0).val; omega

/-! ### The result window -/

/-- Entry `(p, q)` of point `t`'s result block is the array's entry `(10000 t + p, q)`. -/
theorem out_entry (t : Fin cfg0.N) (p : Fin 10000) (q : Fin 1) :
    ((cfg0.win 9).blk t).view.emb (ix2 p q) = ix2 (rowOf t p) q := by
  obtain ⟨-, -, -, -, -, -, -, -, -, -, -, -, -, -, -, e0, e1⟩ := where_blocks t
  refine funext fun x => Fin.ext ?_
  match x with
  | ⟨0, _⟩ => show win0_9.index t (0 : Fin 2) * 10000 + 1 * p.val = t.val * 10000 + p.val; omega
  | ⟨1, _⟩ => show win0_9.index t (1 : Fin 2) * 1 + 1 * q.val = q.val; omega

/-- An index of the result array is in point `t`'s block iff each coordinate is in the block's range on its axis. -/
theorem mem_block (t : Fin cfg0.N) (i : S500000x1.Idx) :
    i ∈ ((cfg0.win 9).blk t).view.set ↔ ∀ a : Fin 2, win0_9.index t a * S10000x1.size a ≤ (i a).val ∧ (i a).val < win0_9.index t a * S10000x1.size a + S10000x1.size a := by
  show i ∈ ((View.whole main_v46).slice (win0_9.rect t)).set ↔ _
  rw [View.set_slice_whole, Rect.mem_set_unit]
  exact Iff.rfl

/-- Row `r` lies in the block of point `r / 10000`, and every point writes its block back. -/
theorem covered (i : S500000x1.Idx) : ∃ t : Fin cfg0.N, (cfg0.win 9).flush t = true ∧ i ∈ ((cfg0.win 9).blk t).view.set := by
  have hi0 : (i 0).val < 500000 := (i 0).isLt
  have hi1 : (i 1).val < 1 := (i 1).isLt
  let t : Fin cfg0.N := ⟨(i 0).val / 10000, by show (i 0).val / 10000 < 50; omega⟩
  obtain ⟨-, -, -, -, -, -, -, -, -, -, -, -, -, -, -, e0, e1⟩ := where_blocks t
  have ht : t.val = (i 0).val / 10000 := rfl
  refine ⟨t, flush0_9 t, ?_⟩
  rw [mem_block]
  intro a
  match a with
  | ⟨0, _⟩ => show win0_9.index t (0 : Fin 2) * 10000 ≤ (i 0).val ∧ (i 0).val < win0_9.index t (0 : Fin 2) * 10000 + 10000; omega
  | ⟨1, _⟩ => show win0_9.index t (1 : Fin 2) * 1 ≤ (i 1).val ∧ (i 1).val < win0_9.index t (1 : Fin 2) * 1 + 1; omega

end Cert.KernelIdeal.Blocks

end
-- ==== Proof.LibRowProduct.lean ====
/-
  A matrix product with ONE contracted axis, read at an entry.

  For an `[a, b]` array `L` and a `[b, c]` array `R`, a product that contracts `L`'s second axis with `R`'s first and
  starts from a zero accumulator holds, at entry `(p, q)`, the sum over the shared coordinate `k < b` of
  `L (p, k) · R (k, q)`. The product's own definition sums over the index set of its contraction shape and reads the
  operands through the dimension record's two index maps; this file re-indexes that sum by the one shared coordinate.
  What it needs of the record is stated as four facts about those index maps (where each operand's two coordinates
  come from), so it holds for any record of this kind, at any extents and for any two element formats; a caller proves
  the four facts for its own record. Nothing here mentions a program.
-/
import Idealize.ShloMosaic.PureOps.Ideal.Laws
import Idealize.ShloMosaic.Lib.ValueIdx

noncomputable section

open scoped BigOperators
open Idealize.ShloMosaic Idealize.ShloMosaic.ValueIdx

namespace Cert.LibRowProduct

/-- **A one-axis product into a zero accumulator, at `(p, q)`**: `∑ k, L (p, k) · R (k, q)`. Stated for the vector
    operation `matmul` as a kernel body prints it (the ideal instance's product at the operands' shapes and formats).
    `hr`, `hs`: the record contracts one axis, of extent `b`. `l0`, `l1`: the left operand is read at the result's row
    and at the contraction coordinate. `r0`, `r1`: the right operand is read at the contraction coordinate and at the
    result's column. -/
theorem matmul_zero_apply {a b c : ℕ} {φ₁ φ₂ : FTy}
    (d : DotDims (⟨2, ![a, b]⟩ : Shape) (⟨2, ![b, c]⟩ : Shape) (⟨2, ![a, c]⟩ : Shape))
    (prec : Option ContractPrecision) (hr : d.contr.rank = 1) (hs : d.contr.size ⟨0, by omega⟩ = b)
    (l0 : ∀ (i : (⟨2, ![a, c]⟩ : Shape).Idx) (s : d.contr.Idx), (d.lhsIdx i s 0).val = (i 0).val)
    (l1 : ∀ (i : (⟨2, ![a, c]⟩ : Shape).Idx) (s : d.contr.Idx), (d.lhsIdx i s 1).val = (s ⟨0, by omega⟩).val)
    (r0 : ∀ (i : (⟨2, ![a, c]⟩ : Shape).Idx) (s : d.contr.Idx), (d.rhsIdx i s 0).val = (s ⟨0, by omega⟩).val)
    (r1 : ∀ (i : (⟨2, ![a, c]⟩ : Shape).Idx) (s : d.contr.Idx), (d.rhsIdx i s 1).val = (i 1).val)
    (L : FVec Ideal (⟨2, ![a, b]⟩ : Shape) φ₁) (R : FVec Ideal (⟨2, ![b, c]⟩ : Shape) φ₂) (p : Fin a) (q : Fin c) :
    matmul (F := Ideal) d prec L R (constant (⟨2, ![a, c]⟩ : Shape) .f32 0x00000000#32) (ix2 p q)
      = ∑ k : Fin b, L (ix2 p k) * R (ix2 k q) := by
  show FloatOps.matmul d prec L R (constant (⟨2, ![a, c]⟩ : Shape) .f32 0x00000000#32) (ix2 p q) = _
  rw [Ideal.matmul_constant_zero_apply, ← Equiv.sum_comp (contrEquiv1 d b hr hs).symm]
  refine Finset.sum_congr rfl fun k _ => ?_
  have hk := contrEquiv1_symm_val d b hr hs k
  have el : d.lhsIdx (ix2 p q) ((contrEquiv1 d b hr hs).symm k) = ix2 p k := funext fun x => Fin.ext (by
    match x with
    | ⟨0, _⟩ => exact l0 _ _
    | ⟨1, _⟩ => exact (l1 _ _).trans hk)
  have er : d.rhsIdx (ix2 p q) ((contrEquiv1 d b hr hs).symm k) = ix2 k q := funext fun x => Fin.ext (by
    match x with
    | ⟨0, _⟩ => exact (r0 _ _).trans hk
    | ⟨1, _⟩ => exact r1 _ _)
  rw [el, er]

end Cert.LibRowProduct

end
-- ==== Proof.KernelRow.lean ====
/-
  What the kernel's body stores, one entry at a time.

  At a grid point the body loads a block of 10000 rows of each of the three feature arrays and the whole of the six
  weight and bias arrays, and stores one `10000 × 1` value. Read at the ideal instance, where narrowing a float to a
  shorter format changes nothing, that value is: the three feature blocks joined along the columns; a product with
  `W₁` into a zero accumulator, plus `b₁` laid over the rows, floored at zero; the same with `W₂`, `b₂`; and the
  same with `Wₒ`, `bₒ` without the floor. Each of those four stages, at entry `(p, ·)`, depends on its input through
  row `p` alone, and is the corresponding stage of `RowNet`. So the stored value at `(p, q)` is row `p` of the joined
  blocks through the three layers (`stored_apply`).
-/
import proofs.«152966_j2594160247151_1_alg».proof.Proof.Gen.KernelIdeal.Skeleton
import proofs.«152966_j2594160247151_1_alg».proof.Proof.RowNet
import proofs.«152966_j2594160247151_1_alg».proof.Proof.LibRowProduct
import Idealize.ShloMosaic.Lib.Pipeline.Value
import Idealize.ShloMosaic.Lib.ValueLayout

noncomputable section

open scoped BigOperators
open Idealize.ShloMosaic Idealize.ShloMosaic.ValueIdx

namespace Cert.KernelIdeal.Row

open Cert.KernelIdeal Cert.KernelIdeal.Gen Cert.RowNet

/-! ### The index maps of the first product (`S10000x64` by `S64x128`) -/

theorem lhsA_0 (i : S10000x128.Idx) (s : dot_S10000x64_S64x128_S10000x128_1_0_0_1_n_n.contr.Idx) :
    (dot_S10000x64_S64x128_S10000x128_1_0_0_1_n_n.lhsIdx i s 0).val = (i 0).val := by
  unfold DotDims.lhsIdx
  rw [dif_neg (show ¬(0 : Fin S10000x64.rank) ∈ dot_S10000x64_S64x128_S10000x128_1_0_0_1_n_n.lhsBatch by decide), dif_pos (show (0 : Fin S10000x64.rank) ∈ dot_S10000x64_S64x128_S10000x128_1_0_0_1_n_n.lhsNonContracting by decide)]
  rfl
theorem lhsA_1 (i : S10000x128.Idx) (s : dot_S10000x64_S64x128_S10000x128_1_0_0_1_n_n.contr.Idx) :
    (dot_S10000x64_S64x128_S10000x128_1_0_0_1_n_n.lhsIdx i s 1).val = (s ⟨0, by decide⟩).val :=
  dot_S10000x64_S64x128_S10000x128_1_0_0_1_n_n.lhsIdx_val_of_single rfl i s
theorem rhsA_0 (i : S10000x128.Idx) (s : dot_S10000x64_S64x128_S10000x128_1_0_0_1_n_n.contr.Idx) :
    (dot_S10000x64_S64x128_S10000x128_1_0_0_1_n_n.rhsIdx i s 0).val = (s ⟨0, by decide⟩).val :=
  dot_S10000x64_S64x128_S10000x128_1_0_0_1_n_n.rhsIdx_val_of_single rfl i s
theorem rhsA_1 (i : S10000x128.Idx) (s : dot_S10000x64_S64x128_S10000x128_1_0_0_1_n_n.contr.Idx) :
    (dot_S10000x64_S64x128_S10000x128_1_0_0_1_n_n.rhsIdx i s 1).val = (i 1).val := by
  unfold DotDims.rhsIdx
  rw [dif_neg (show ¬(1 : Fin S64x128.rank) ∈ dot_S10000x64_S64x128_S10000x128_1_0_0_1_n_n.rhsBatch by decide), dif_pos (show (1 : Fin S64x128.rank) ∈ dot_S10000x64_S64x128_S10000x128_1_0_0_1_n_n.rhsNonContracting by decide)]
  rfl

/-! ### The index maps of the second product (`S10000x128` by `S128x64`) -/

theorem lhsB_0 (i : S10000x64.Idx) (s : dot_S10000x128_S128x64_S10000x64_1_0_0_1_n_n.contr.Idx) :
    (dot_S10000x128_S128x64_S10000x64_1_0_0_1_n_n.lhsIdx i s 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhsB_1 (i : S10000x64.Idx) (s : dot_S10000x128_S128x64_S10000x64_1_0_0_1_n_n.contr.Idx) :
    (dot_S10000x128_S128x64_S10000x64_1_0_0_1_n_n.lhsIdx i s 1).val = (s ⟨0, by decide⟩).val :=
  dot_S10000x128_S128x64_S10000x64_1_0_0_1_n_n.lhsIdx_val_of_single rfl i s
theorem rhsB_0 (i : S10000x64.Idx) (s : dot_S10000x128_S128x64_S10000x64_1_0_0_1_n_n.contr.Idx) :
    (dot_S10000x128_S128x64_S10000x64_1_0_0_1_n_n.rhsIdx i s 0).val = (s ⟨0, by decide⟩).val :=
  dot_S10000x128_S128x64_S10000x64_1_0_0_1_n_n.rhsIdx_val_of_single rfl i s
theorem rhsB_1 (i : S10000x64.Idx) (s : dot_S10000x128_S128x64_S10000x64_1_0_0_1_n_n.contr.Idx) :
    (dot_S10000x128_S128x64_S10000x64_1_0_0_1_n_n.rhsIdx i s 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-! ### The index maps of the third product (`S10000x64` by `S64x1`) -/

theorem lhsC_0 (i : S10000x1.Idx) (s : dot_S10000x64_S64x1_S10000x1_1_0_0_1_n_n.contr.Idx) :
    (dot_S10000x64_S64x1_S10000x1_1_0_0_1_n_n.lhsIdx i s 0).val = (i 0).val := by
  unfold DotDims.lhsIdx
  rw [dif_neg (show ¬(0 : Fin S10000x64.rank) ∈ dot_S10000x64_S64x1_S10000x1_1_0_0_1_n_n.lhsBatch by decide), dif_pos (show (0 : Fin S10000x64.rank) ∈ dot_S10000x64_S64x1_S10000x1_1_0_0_1_n_n.lhsNonContracting by decide)]
  rfl
theorem lhsC_1 (i : S10000x1.Idx) (s : dot_S10000x64_S64x1_S10000x1_1_0_0_1_n_n.contr.Idx) :
    (dot_S10000x64_S64x1_S10000x1_1_0_0_1_n_n.lhsIdx i s 1).val = (s ⟨0, by decide⟩).val :=
  dot_S10000x64_S64x1_S10000x1_1_0_0_1_n_n.lhsIdx_val_of_single rfl i s
theorem rhsC_0 (i : S10000x1.Idx) (s : dot_S10000x64_S64x1_S10000x1_1_0_0_1_n_n.contr.Idx) :
    (dot_S10000x64_S64x1_S10000x1_1_0_0_1_n_n.rhsIdx i s 0).val = (s ⟨0, by decide⟩).val :=
  dot_S10000x64_S64x1_S10000x1_1_0_0_1_n_n.rhsIdx_val_of_single rfl i s
theorem rhsC_1 (i : S10000x1.Idx) (s : dot_S10000x64_S64x1_S10000x1_1_0_0_1_n_n.contr.Idx) :
    (dot_S10000x64_S64x1_S10000x1_1_0_0_1_n_n.rhsIdx i s 1).val = (i 1).val := by
  unfold DotDims.rhsIdx
  rw [dif_neg (show ¬(1 : Fin S64x1.rank) ∈ dot_S10000x64_S64x1_S10000x1_1_0_0_1_n_n.rhsBatch by decide), dif_pos (show (1 : Fin S64x1.rank) ∈ dot_S10000x64_S64x1_S10000x1_1_0_0_1_n_n.rhsNonContracting by decide)]
  rfl

/-! ### The four stages of the body, each as a function of its input block -/

/-- The three feature blocks side by side (a cast of a block to its own shape is the block). -/
abbrev joinedBlock (v0 : Vec Ideal S10000x32 .f32) (v1 v3 : Vec Ideal S10000x16 .f32) : FVec Ideal S10000x64 .f32 :=
  concatenate S10000x64 1 [⟨S10000x32, v0⟩, ⟨S10000x16, shapeCast S10000x16 v1 shapeCasts_S10000x16_S10000x16⟩, ⟨S10000x16, shapeCast S10000x16 v3 shapeCasts_S10000x16_S10000x16⟩] concatenates_S10000x32_S10000x16_S10000x16_S10000x64_d1

/-- The first layer of a block `H` of joined rows. -/
abbrev layer1 (H : FVec Ideal S10000x64 .f32) (v6 : Vec Ideal S64x128 .f32) (v10 : Vec Ideal S128 .f32) : FVec Ideal S10000x128 .f32 :=
  maximumf (addf (matmul dot_S10000x64_S64x128_S10000x128_1_0_0_1_n_n none (truncf .bf16 H bitsLt_bf16_f32) (truncf .bf16 v6 bitsLt_bf16_f32) (constant S10000x128 .f32 0x00000000#32))
    (broadcastTo S10000x128 (shapeCast S1x128 v10 shapeCasts_S128_S1x128) broadcasts_S1x128_S10000x128)) (broadcast S10000x128 (Scalar.ofBits .f32 0x00000000#32))

/-- The second layer of a block `U` of first-layer rows. -/
abbrev layer2 (U : FVec Ideal S10000x128 .f32) (v16 : Vec Ideal S128x64 .f32) (v20 : Vec Ideal S64 .f32) : FVec Ideal S10000x64 .f32 :=
  maximumf (addf (matmul dot_S10000x128_S128x64_S10000x64_1_0_0_1_n_n none (truncf .bf16 U bitsLt_bf16_f32) (truncf .bf16 v16 bitsLt_bf16_f32) (constant S10000x64 .f32 0x00000000#32))
    (broadcastTo S10000x64 (shapeCast S1x64 v20 shapeCasts_S64_S1x64) broadcasts_S1x64_S10000x64)) (broadcast S10000x64 (Scalar.ofBits .f32 0x00000000#32))

/-- The read-out of a block `Vv` of second-layer rows. -/
abbrev layer3 (Vv : FVec Ideal S10000x64 .f32) (v26 : Vec Ideal S64x1 .f32) (v30 : Vec Ideal S1 .f32) : FVec Ideal S10000x1 .f32 :=
  addf (matmul dot_S10000x64_S64x1_S10000x1_1_0_0_1_n_n none (truncf .bf16 Vv bitsLt_bf16_f32) (truncf .bf16 v26 bitsLt_bf16_f32) (constant S10000x1 .f32 0x00000000#32))
    (broadcastTo S10000x1 (shapeCast S1x1 v30 shapeCasts_S1_S1x1) broadcasts_S1x1_S10000x1)

/-- The stored value is the four stages composed: the body's text, with its intermediate values named. -/
theorem stored_eq (v0 : Vec Ideal S10000x32 .f32) (v1 v3 : Vec Ideal S10000x16 .f32) (v6 : Vec Ideal S64x128 .f32) (v10 : Vec Ideal S128 .f32)
    (v16 : Vec Ideal S128x64 .f32) (v20 : Vec Ideal S64 .f32) (v26 : Vec Ideal S64x1 .f32) (v30 : Vec Ideal S1 .f32) :
    k0_pay1 (F := Ideal) v0 v1 v3 v6 v10 v16 v20 v26 v30 = layer3 (layer2 (layer1 (joinedBlock v0 v1 v3) v6 v10) v16 v20) v26 v30 := rfl

/-! ### Each stage at an entry -/

/-- Entry `(p, a)` of the joined block: the column decides which block is read, and at which of its columns. -/
theorem joinedBlock_apply (v0 : Vec Ideal S10000x32 .f32) (v1 v3 : Vec Ideal S10000x16 .f32) (p : Fin 10000) (a : Fin 64) :
    joinedBlock v0 v1 v3 (ix2 p a) = joined v0 v1 v3 p a := by
  show concatenate S10000x64 1 [⟨S10000x32, v0⟩, ⟨S10000x16, shapeCast S10000x16 v1 shapeCasts_S10000x16_S10000x16⟩, ⟨S10000x16, shapeCast S10000x16 v3 shapeCasts_S10000x16_S10000x16⟩] concatenates_S10000x32_S10000x16_S10000x16_S10000x64_d1 (ix2 p a) = _
  rw [shapeCast_self v1, shapeCast_self v3]
  exact concatenate_apply_joined v0 v1 v3 concatenates_S10000x32_S10000x16_S10000x16_S10000x64_d1 p a

/-- Entry `(p, j)` of the first layer reads its input along row `p`. -/
theorem layer1_apply (H : FVec Ideal S10000x64 .f32) (v6 : Vec Ideal S64x128 .f32) (v10 : Vec Ideal S128 .f32) (p : Fin 10000) (j : Fin 128) :
    layer1 H v6 v10 (ix2 p j) = hidden1 v6 v10 (fun a => H (ix2 p a)) j := by
  unfold hidden1 layer1
  rw [maximumf_apply, addf_apply, broadcast_apply]
  rw [LibRowProduct.matmul_zero_apply dot_S10000x64_S64x128_S10000x128_1_0_0_1_n_n none rfl rfl lhsA_0 lhsA_1 rhsA_0 rhsA_1,
    broadcastTo_1b_ab_apply, shapeCast_a_1a_apply]
  rfl

/-- Entry `(p, k)` of the second layer reads its input along row `p`. -/
theorem layer2_apply (U : FVec Ideal S10000x128 .f32) (v16 : Vec Ideal S128x64 .f32) (v20 : Vec Ideal S64 .f32) (p : Fin 10000) (k : Fin 64) :
    layer2 U v16 v20 (ix2 p k) = hidden2 v16 v20 (fun j => U (ix2 p j)) k := by
  unfold hidden2 layer2
  rw [maximumf_apply, addf_apply, broadcast_apply]
  rw [LibRowProduct.matmul_zero_apply dot_S10000x128_S128x64_S10000x64_1_0_0_1_n_n none rfl rfl lhsB_0 lhsB_1 rhsB_0 rhsB_1,
    broadcastTo_1b_ab_apply, shapeCast_a_1a_apply]
  rfl

/-- Entry `(p, q)` of the read-out reads its input along row `p`. -/
theorem layer3_apply (Vv : FVec Ideal S10000x64 .f32) (v26 : Vec Ideal S64x1 .f32) (v30 : Vec Ideal S1 .f32) (p : Fin 10000) (q : Fin 1) :
    layer3 Vv v26 v30 (ix2 p q) = readout v26 v30 (fun k => Vv (ix2 p k)) q := by
  unfold readout layer3
  rw [addf_apply]
  rw [LibRowProduct.matmul_zero_apply dot_S10000x64_S64x1_S10000x1_1_0_0_1_n_n none rfl rfl lhsC_0 lhsC_1 rhsC_0 rhsC_1,
    broadcastTo_1b_ab_apply, shapeCast_a_1a_apply]
  have hq : q = (0 : Fin 1) := Subsingleton.elim _ _
  subst hq
  rfl

/-- **The stored value at `(p, q)`** is row `p` of the joined blocks through the three layers. -/
theorem stored_apply (v0 : Vec Ideal S10000x32 .f32) (v1 v3 : Vec Ideal S10000x16 .f32) (v6 : Vec Ideal S64x128 .f32) (v10 : Vec Ideal S128 .f32)
    (v16 : Vec Ideal S128x64 .f32) (v20 : Vec Ideal S64 .f32) (v26 : Vec Ideal S64x1 .f32) (v30 : Vec Ideal S1 .f32) (p : Fin 10000) (q : Fin 1) :
    k0_pay1 (F := Ideal) v0 v1 v3 v6 v10 v16 v20 v26 v30 (ix2 p q) = row v6 v10 v16 v20 v26 v30 (joined v0 v1 v3 p) q := by
  rw [stored_eq, layer3_apply]
  unfold row
  congr 1
  funext k
  rw [layer2_apply]
  congr 1
  funext j
  rw [layer1_apply]
  congr 1
  funext a
  exact joinedBlock_apply v0 v1 v3 p a

end Cert.KernelIdeal.Row

end
-- ==== Proof.KernelWhole.lean ====
/-
  The kernel's whole result array.

  Point `t` of the 50 is given rows `10000 t … 10000 t + 9999` of the three feature arrays (`X` and the two looked-up
  group-mean arrays, which the host part of the program has written before the region) and all of each weight and
  bias array (Proof/KernelBlocks.lean), and writes back the same rows of the result. What it stores at `(p, q)` is
  row `p` of its joined blocks through the three layers (Proof/KernelRow.lean), which is therefore row `10000 t + p` of
  the joined ARRAYS through the three layers: block `t` of the one function `RowNet.net` of the arrays as the region
  finds them (`stored_block`). The blocks cover the array, so it ends holding that function (`whole`, `run`). Last, the
  arrays as the region finds them are functions of the arguments as launched: an argument is untouched by the host
  part, and the two looked-up arrays are the reference's stages of that name (Proof/KernelLookup.lean); so the
  result is `RowNet.net` of those (`target_eq`).
-/
import proofs.«152966_j2594160247151_1_alg».proof.Proof.Gen.KernelIdeal.Value
import proofs.«152966_j2594160247151_1_alg».proof.Proof.KernelRow
import proofs.«152966_j2594160247151_1_alg».proof.Proof.KernelBlocks
import proofs.«152966_j2594160247151_1_alg».proof.Proof.KernelLookup

set_option maxRecDepth 16384

noncomputable section

open scoped BigOperators
open Idealize.ShloMosaic Idealize.ShloMosaic.TcCoe Idealize.ShloMosaic.ValueIdx Idealize.SL.Sem

namespace Cert.KernelIdeal.Whole

open Cert.KernelIdeal Cert.KernelIdeal.Gen Cert.KernelIdeal.Row Cert.KernelIdeal.Blocks Cert.RowNet
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a; rfl

/-! ### The nine arrays as the region finds them, and the nine blocks a point is given, by their literal types.
    Each array is named as its window's array, the name the blocks' own terms carry. -/

abbrev arrX (c : Dev nD) : Vec Ideal S500000x32 .f32 := V m c (Pipeline.arrRef spec0 0)
abbrev arrA (c : Dev nD) : Vec Ideal S500000x16 .f32 := V m c (Pipeline.arrRef spec0 1)
abbrev arrB (c : Dev nD) : Vec Ideal S500000x16 .f32 := V m c (Pipeline.arrRef spec0 2)
abbrev arrW1 (c : Dev nD) : Vec Ideal S64x128 .f32 := V m c (Pipeline.arrRef spec0 3)
abbrev arrb1 (c : Dev nD) : Vec Ideal S128 .f32 := V m c (Pipeline.arrRef spec0 4)
abbrev arrW2 (c : Dev nD) : Vec Ideal S128x64 .f32 := V m c (Pipeline.arrRef spec0 5)
abbrev arrb2 (c : Dev nD) : Vec Ideal S64 .f32 := V m c (Pipeline.arrRef spec0 6)
abbrev arrWo (c : Dev nD) : Vec Ideal S64x1 .f32 := V m c (Pipeline.arrRef spec0 7)
abbrev arrbo (c : Dev nD) : Vec Ideal S1 .f32 := V m c (Pipeline.arrRef spec0 8)

abbrev blkX (c : Dev nD) (t : Fin cfg0.N) : Vec Ideal S10000x32 .f32 := iblk m c 0 t
abbrev blkA (c : Dev nD) (t : Fin cfg0.N) : Vec Ideal S10000x16 .f32 := iblk m c 1 t
abbrev blkB (c : Dev nD) (t : Fin cfg0.N) : Vec Ideal S10000x16 .f32 := iblk m c 2 t
abbrev blkW1 (c : Dev nD) (t : Fin cfg0.N) : Vec Ideal S64x128 .f32 := iblk m c 3 t
abbrev blkb1 (c : Dev nD) (t : Fin cfg0.N) : Vec Ideal S128 .f32 := iblk m c 4 t
abbrev blkW2 (c : Dev nD) (t : Fin cfg0.N) : Vec Ideal S128x64 .f32 := iblk m c 5 t
abbrev blkb2 (c : Dev nD) (t : Fin cfg0.N) : Vec Ideal S64 .f32 := iblk m c 6 t
abbrev blkWo (c : Dev nD) (t : Fin cfg0.N) : Vec Ideal S64x1 .f32 := iblk m c 7 t
abbrev blkbo (c : Dev nD) (t : Fin cfg0.N) : Vec Ideal S1 .f32 := iblk m c 8 t

/-- The result the run should leave: `RowNet.net` of the arrays as the region finds them. -/
abbrev target (c : Dev nD) : Vec Ideal S500000x1 .f32 :=
  net (n := 500000) (arrX m c) (arrA m c) (arrB m c) (arrW1 m c) (arrb1 m c) (arrW2 m c) (arrb2 m c) (arrWo m c) (arrbo m c)

/-! ### A block is its window's block of its array -/

theorem blkX_apply (c : Dev nD) (t : Fin cfg0.N) (p : Fin 10000) (a : Fin 32) :
    blkX m c t (ix2 p a) = arrX m c (ix2 (rowOf t p) a) := read0 (arrX m c) t p a
theorem blkA_apply (c : Dev nD) (t : Fin cfg0.N) (p : Fin 10000) (a : Fin 16) :
    blkA m c t (ix2 p a) = arrA m c (ix2 (rowOf t p) a) := read1 (arrA m c) t p a
theorem blkB_apply (c : Dev nD) (t : Fin cfg0.N) (p : Fin 10000) (a : Fin 16) :
    blkB m c t (ix2 p a) = arrB m c (ix2 (rowOf t p) a) := read2 (arrB m c) t p a
theorem blkW1_eq (c : Dev nD) (t : Fin cfg0.N) : blkW1 m c t = arrW1 m c := read3 (arrW1 m c) t
theorem blkb1_eq (c : Dev nD) (t : Fin cfg0.N) : blkb1 m c t = arrb1 m c := read4 (arrb1 m c) t
theorem blkW2_eq (c : Dev nD) (t : Fin cfg0.N) : blkW2 m c t = arrW2 m c := read5 (arrW2 m c) t
theorem blkb2_eq (c : Dev nD) (t : Fin cfg0.N) : blkb2 m c t = arrb2 m c := read6 (arrb2 m c) t
theorem blkWo_eq (c : Dev nD) (t : Fin cfg0.N) : blkWo m c t = arrWo m c := read7 (arrWo m c) t
theorem blkbo_eq (c : Dev nD) (t : Fin cfg0.N) : blkbo m c t = arrbo m c := read8 (arrbo m c) t

/-! ### What a point writes back -/

/-- **What point `t` writes back is block `t` of the target.** -/
theorem stored_block (c : Dev nD) (t : Fin cfg0.N) :
    (dats m 0 c).flushed 9 t = ((cfg0.win 9).blk t).view.read (Elt Ideal) (target m c) := by
  rw [Value.flushed9]
  unfold out0_9
  rw [View.canon_unit_zero zero2]
  simp only [View.ld_unit_zero (S := S10000x32) zero2, View.ld_unit_zero (S := S10000x16) zero2, View.ld_unit_zero (S := S64x128) zero2,
    View.ld_unit_zero (S := S128) zero1, View.ld_unit_zero (S := S128x64) zero2, View.ld_unit_zero (S := S64) zero1,
    View.ld_unit_zero (S := S64x1) zero2, View.ld_unit_zero (S := S1) zero1]
  funext y
  obtain ⟨p, q, rfl⟩ : ∃ (p : Fin 10000) (q : Fin 1), y = ix2 p q := ⟨y 0, y 1, eq_ix2 y⟩
  show k0_pay1 (F := Ideal) (blkX m c t) (blkA m c t) (blkB m c t) (blkW1 m c t) (blkb1 m c t) (blkW2 m c t) (blkb2 m c t) (blkWo m c t) (blkbo m c t) (ix2 p q)
      = target m c (((cfg0.win 9).blk t).view.emb (ix2 p q))
  rw [out_entry t p q]
  refine (stored_apply (blkX m c t) (blkA m c t) (blkB m c t) (blkW1 m c t) (blkb1 m c t) (blkW2 m c t) (blkb2 m c t) (blkWo m c t) (blkbo m c t) p q).trans ?_
  rw [blkW1_eq, blkb1_eq, blkW2_eq, blkb2_eq, blkWo_eq, blkbo_eq]
  show row _ _ _ _ _ _ (joined (blkX m c t) (blkA m c t) (blkB m c t) p) q
      = row _ _ _ _ _ _ (joined (n := 500000) (arrX m c) (arrA m c) (arrB m c) (rowOf t p)) q
  rw [joined_congr (fun a => blkX_apply m c t p a) (fun a => blkA_apply m c t p a) (fun a => blkB_apply m c t p a)]

/-- **The result array after the run** is the target: the 50 blocks cover it. -/
theorem whole (c : Dev nD) : (dats m 0 c).arrAt 9 cfg0.N = target m c :=
  (dats m 0 c).arrAt_eq_of_cover 9 (target m c) (fun t _ => stored_block m c t) covered

/-- **The target as a function of the arguments as launched**: the host part before the region writes no argument,
    and leaves in the two looked-up arrays the reference's stages of that name. -/
theorem target_eq (c : Dev nD) :
    target m c = net (n := 500000) (m ((c : Thread nD τ).loc main_arg0))
      (Cert.ReferenceIdeal.ReadP.val_main_v22 (F := Ideal) (m ((c : Thread nD τ).loc main_arg1)) (m ((c : Thread nD τ).loc main_arg3)))
      (Cert.ReferenceIdeal.ReadP.val_main_v45 (F := Ideal) (m ((c : Thread nD τ).loc main_arg2)) (m ((c : Thread nD τ).loc main_arg4)))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10)) := by
  have eX : arrX m c = m ((c : Thread nD τ).loc main_arg0) := V_main_arg0 m c
  have eA := Lookup.first_window m c
  have eB := Lookup.second_window m c
  have eW1 : arrW1 m c = m ((c : Thread nD τ).loc main_arg5) := V_main_arg5 m c
  have eb1 : arrb1 m c = m ((c : Thread nD τ).loc main_arg6) := V_main_arg6 m c
  have eW2 : arrW2 m c = m ((c : Thread nD τ).loc main_arg7) := V_main_arg7 m c
  have eb2 : arrb2 m c = m ((c : Thread nD τ).loc main_arg8) := V_main_arg8 m c
  have eWo : arrWo m c = m ((c : Thread nD τ).loc main_arg9) := V_main_arg9 m c
  have ebo : arrbo m c = m ((c : Thread nD τ).loc main_arg10) := V_main_arg10 m c
  show net (n := 500000) (arrX m c) (arrA m c) (arrB m c) (arrW1 m c) (arrb1 m c) (arrW2 m c) (arrb2 m c) (arrWo m c) (arrbo m c) = _
  rw [eX, eW1, eb1, eW2, eb2, eWo, ebo]
  show net (n := 500000) _ (V m c (Pipeline.arrRef spec0 1)) (V m c (Pipeline.arrRef spec0 2)) _ _ _ _ _ _ = _
  rw [eA, eB]

/-- The run, with the result array named: every weakly fair execution ends with the result at the target and the
    arguments unchanged. -/
theorem run : θ_run defs (onTc (τ := τ) (main (F := Ideal))) ⟨m, fun _ => 0, ρ⟩ fun r => ∀ c : Dev nD,
      r.2.mem ((c : Thread nD τ).loc main_v46) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (whole m c), (h c).2⟩) (Value.run_blocks m ρ)

end Cert.KernelIdeal.Whole

end
-- ==== Proof.lean ====
/-
  A three-layer network over 500000 rows: the kernel against its reference, over the extended reals.

  Both programs take a `500000 × 32` array `X`, two label arrays with their `500000 × 16` embedding arrays, and the
  weights and biases `W₁ : 64 × 128`, `b₁`, `W₂ : 128 × 64`, `b₂`, `Wₒ : 64 × 1`, `bₒ`. Each first turns every
  (labels, embeddings) pair into a `500000 × 16` array: the mean embedding of each label's group, looked up at every
  row's label. The two programs do this by the same host operations, so these two arrays are the same functions of the
  arguments on both sides (Proof/KernelLookup.lean) and are never opened. Then every row `r` — the 32 entries of `X`
  followed by the 16 + 16 looked-up entries — goes through

      u = max (h · W₁ + b₁) 0,   v = max (u · W₂ + b₂) 0,   y = v · Wₒ + bₒ        (Proof/RowNet.lean)

  The reference does this with whole-array operations (Proof/RefRow.lean reads its result at an entry). The kernel does
  it in one region of 50 grid points, each given 10000 rows; narrowing its operands to a shorter float format, as the
  body does before each product, is the identity at the ideal instance (Proof/KernelRow.lean reads what a point stores
  at an entry; Proof/KernelBlocks.lean says which rows a point is given; Proof/KernelWhole.lean puts the 50 blocks together). Both results are the one function `RowNet.net` of
  the same arrays: entry by entry the same finite sums of the same products, so no law of the extended reals beyond
  that is needed and the inputs' finiteness is not used.

  The three frames: the kernel's two are its generated frames; the reference has no region, and its frame is its run
  with the result forgotten. The idealized kernel is the kernel's own text read at the ideal instance (nothing was
  rewritten), so that conjunct is `True`.
-/
import proofs.«152966_j2594160247151_1_alg».proof.Defs
import proofs.«152966_j2594160247151_1_alg».proof.Proof.Gen.Kernel
import proofs.«152966_j2594160247151_1_alg».proof.Proof.Gen.Kernel.Skeleton
import proofs.«152966_j2594160247151_1_alg».proof.Proof.Gen.Kernel.Launch
import proofs.«152966_j2594160247151_1_alg».proof.Proof.Gen.Kernel.Points
import proofs.«152966_j2594160247151_1_alg».proof.Proof.Gen.Kernel.Frame
import proofs.«152966_j2594160247151_1_alg».proof.Proof.Gen.KernelIdeal
import proofs.«152966_j2594160247151_1_alg».proof.Proof.Gen.KernelIdeal.Skeleton
import proofs.«152966_j2594160247151_1_alg».proof.Proof.Gen.KernelIdeal.Launch
import proofs.«152966_j2594160247151_1_alg».proof.Proof.Gen.KernelIdeal.Points
import proofs.«152966_j2594160247151_1_alg».proof.Proof.Gen.KernelIdeal.Frame
import proofs.«152966_j2594160247151_1_alg».proof.Proof.Gen.ReferenceIdeal
import proofs.«152966_j2594160247151_1_alg».proof.Proof.Gen.Pre_finite_inputs
import proofs.«152966_j2594160247151_1_alg».proof.Proof.Gen.KernelIdeal.Value
import proofs.«152966_j2594160247151_1_alg».proof.Proof.RefRun
import proofs.«152966_j2594160247151_1_alg».proof.Proof.RefRead
import proofs.«152966_j2594160247151_1_alg».proof.Proof.RefRow
import proofs.«152966_j2594160247151_1_alg».proof.Proof.KernelLookup
import proofs.«152966_j2594160247151_1_alg».proof.Proof.KernelBlocks
import proofs.«152966_j2594160247151_1_alg».proof.Proof.KernelWhole
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Nothing was rewritten when the kernel was idealized. -/
theorem preserves : Cert.preserves_Kernel_KernelIdeal := trivial

/-- From memories that agree on the eleven arguments both programs end with the result array at `RowNet.net` of
    `X`, the two looked-up arrays and the six weight and bias arrays: the kernel by its 50 blocks, the reference by its
    whole-array stages. The kernel's result is stated over the arrays as its region finds them; as functions of the
    launch contents those are the arguments themselves and the reference's two looked-up stages (`target_eq`). -/
theorem algebraic : Cert.algebraic_KernelIdeal_ReferenceIdeal := by
  intro m ρ m' ρ' _ hagree
  refine ⟨fun c => Cert.KernelIdeal.Whole.target m c, Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10⟩ := hagree c
  rw [Cert.ReferenceIdeal.ReadP.val_main_v60_eq, Cert.ReferenceIdeal.Row.result_eq, h0, h1, h2, h3, h4, h5, h6, h7, h8, h9, h10]
  exact (Cert.KernelIdeal.Whole.target_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
